-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S5825x16384 : Shape := ⟨2, ![5825, 16384]⟩
abbrev S16384x64 : Shape := ⟨2, ![16384, 64]⟩
abbrev S_ : Shape := ⟨0, ![]⟩

class Facts : Prop where
  bcast_S_S5825x16384 : S_.BroadcastsInDim S5825x16384 (![] : Fin 0 → Fin S5825x16384.rank)
  reducesTo_S5825x16384_S_d0_1 : S5825x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S5825x16384 .f32) (main_arg2 : FVec F S16384x64 .f32) : IVec S_ 1 :=
  let main_v0 : FVec F S5825x16384 .f32 := Host.absf main_arg1
  let main_cst : FVec F S_ .f32 := constant S_ .f32 0x7F800000#32
  let main_v1 : FVec F S5825x16384 .f32 := broadcastInDim S5825x16384 ![] bcast_S_S5825x16384 main_cst
  let main_v2 : IVec S5825x16384 1 := cmpf .olt main_v0 main_v1
  let main_c : IVec S_ 1 := constantI S_ 1 1#1
  let main_v3 : IVec S_ 1 := (fun x v => Host.reduce IntOp.andi x v reducesTo_S5825x16384_S_d0_1 h_S_) main_v2 main_c
  let main_v4 : FVec F S16384x64 .f32 := Host.absf main_arg2
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  main_v12
-- ==== Kernel.lean ====
abbrev S16384 : Shape := ⟨1, ![16384]⟩
abbrev S5825x16384 : Shape := ⟨2, ![5825, 16384]⟩
abbrev S16384x64 : Shape := ⟨2, ![16384, 64]⟩
abbrev S5825x64 : Shape := ⟨2, ![5825, 64]⟩
abbrev S768x4096 : Shape := ⟨2, ![768, 4096]⟩
abbrev S768x64 : Shape := ⟨2, ![768, 64]⟩
abbrev S768x1024 : Shape := ⟨2, ![768, 1024]⟩
abbrev S1024x64 : Shape := ⟨2, ![1024, 64]⟩
abbrev S16384x1 : Shape := ⟨2, ![16384, 1]⟩

abbrev nBuf : Space → Nat
  | .hbm => 7
  | .vmem => 5
  | .smem => 0
  | _ => 0

abbrev bufTy : (tb : Table) → Fin (tcTables nBuf tb) → BufTy
  | .hbm, ⟨0, _⟩ => ⟨S16384, .i32⟩
  | .hbm, ⟨1, _⟩ => ⟨S5825x16384, .f32⟩
  | .hbm, ⟨2, _⟩ => ⟨S16384x64, .f32⟩
  | .hbm, ⟨3, _⟩ => ⟨S16384x64, .bf16⟩
  | .hbm, ⟨4, _⟩ => ⟨S5825x64, .f32⟩
  | .hbm, ⟨5, _⟩ => ⟨S16384x1, .i32⟩
  | .hbm, ⟨6, _⟩ => ⟨S16384x64, .f32⟩
  | .local _ .vmem, ⟨0, _⟩ => ⟨S768x4096, .f32⟩
  | .local _ .vmem, ⟨1, _⟩ => ⟨S768x4096, .f32⟩
  | .local _ .vmem, ⟨2, _⟩ => ⟨S16384x64, .bf16⟩
  | .local _ .vmem, ⟨3, _⟩ => ⟨S768x64, .f32⟩
  | .local _ .vmem, ⟨4, _⟩ => ⟨S768x64, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_mult2 : BitVec 32 :=
  let c0_i32_1 : BitVec 32 := 0#32
  let c1024_i32 : BitVec 32 := 1024#32
  let v6 : BitVec 32 := Scalar.muli c0_i32_1 c1024_i32
  v6
def k0_off1 (c0_i32_1 : BitVec 32) : Fin 2 → Nat :=
  let c0 : Index := 0#32
  let c1024_i32 : BitVec 32 := 1024#32
  let v6 : BitVec 32 := Scalar.muli c0_i32_1 c1024_i32
  let v7 : BitVec 32 := v6
  let v8 : Index := Scalar.indexCast v7
  ![0, v8.toNat]
def k0_mult3 (i : grid0.Coords) : BitVec 32 :=
  let arg1 : BitVec 32 := BitVec.ofNat 32 (i 1).val
  let c4096_i32 : BitVec 32 := 4096#32
  let v3 : BitVec 32 := Scalar.muli arg1 c4096_i32
  let v4 : BitVec 32 := v3
  let c0_i32_1 : BitVec 32 := 0#32
  let c1024_i32 : BitVec 32 := 1024#32
  let v6 : BitVec 32 := Scalar.muli c0_i32_1 c1024_i32
  let v7 : BitVec 32 := v6
  let v11 : BitVec 32 := Scalar.addi v4 v7
  v11
def k0_off2 (i : grid0.Coords) (c0_i32_1 : BitVec 32) : Fin 2 → Nat :=
  let arg1 : BitVec 32 := BitVec.ofNat 32 (i 1).val
  let c4096_i32 : BitVec 32 := 4096#32
  let v3 : BitVec 32 := Scalar.muli arg1 c4096_i32
  let v4 : BitVec 32 := v3
  let c1024_i32 : BitVec 32 := 1024#32
  let v6 : BitVec 32 := Scalar.muli c0_i32_1 c1024_i32
  let v7 : BitVec 32 := v6
  let v11 : BitVec 32 := Scalar.addi v4 v7
  let v12 : BitVec 32 := v11
  let v13 : Index := Scalar.indexCast v12
  let c0_2 : Index := 0#32
  ![v13.toNat, 0]
def k0_mult4 : BitVec 32 :=
  let c1_i32 : BitVec 32 := 1#32
  let c1024_i32_4 : BitVec 32 := 1024#32
  let v18 : BitVec 32 := Scalar.muli c1_i32 c1024_i32_4
  v18
def k0_mult5 (i : grid0.Coords) : BitVec 32 :=
  let arg1 : BitVec 32 := BitVec.ofNat 32 (i 1).val
  let c4096_i32 : BitVec 32 := 4096#32
  let v3 : BitVec 32 := Scalar.muli arg1 c4096_i32
  let v4 : BitVec 32 := v3
  let c1_i32 : BitVec 32 := 1#32
  let c1024_i32_4 : BitVec 32 := 1024#32
  let v18 : BitVec 32 := Scalar.muli c1_i32 c1024_i32_4
  let v19 : BitVec 32 := v18
  let v23 : BitVec 32 := Scalar.addi v4 v19
  v23
def k0_mult6 : BitVec 32 :=
  let c2_i32 : BitVec 32 := 2#32
  let c1024_i32_8 : BitVec 32 := 1024#32
  let v30 : BitVec 32 := Scalar.muli c2_i32 c1024_i32_8
  v30
def k0_mult7 (i : grid0.Coords) : BitVec 32 :=
  let arg1 : BitVec 32 := BitVec.ofNat 32 (i 1).val
  let c4096_i32 : BitVec 32 := 4096#32
  let v3 : BitVec 32 := Scalar.muli arg1 c4096_i32
  let v4 : BitVec 32 := v3
  let c2_i32 : BitVec 32 := 2#32
  let c1024_i32_8 : BitVec 32 := 1024#32
  let v30 : BitVec 32 := Scalar.muli c2_i32 c1024_i32_8
  let v31 : BitVec 32 := v30
  let v35 : BitVec 32 := Scalar.addi v4 v31
  v35
def k0_mult8 : BitVec 32 :=
  let c3_i32 : BitVec 32 := 3#32
  let c1024_i32_12 : BitVec 32 := 1024#32
  let v42 : BitVec 32 := Scalar.muli c3_i32 c1024_i32_12
  v42
def k0_mult9 (i : grid0.Coords) : BitVec 32 :=
  let arg1 : BitVec 32 := BitVec.ofNat 32 (i 1).val
  let c4096_i32 : BitVec 32 := 4096#32
  let v3 : BitVec 32 := Scalar.muli arg1 c4096_i32
  let v4 : BitVec 32 := v3
  let c3_i32 : BitVec 32 := 3#32
  let c1024_i32_12 : BitVec 32 := 1024#32
  let v42 : BitVec 32 := Scalar.muli c3_i32 c1024_i32_12
  let v43 : BitVec 32 := v42
  let v47 : BitVec 32 := Scalar.addi v4 v43
  v47
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S768x64_S768x64_0_0 : ∀ a, (![0, 0] : Fin 2 → Nat) a + S768x64.size a ≤ S768x64.size a
  h_S768x64 : 0 < S768x64.numel
  h_S768x1024 : 0 < S768x1024.numel
  h_S1024x64 : 0 < S1024x64.numel
  shapeCasts_S1024x64_S1024x64 : S1024x64.ShapeCasts S1024x64
  shapeCasts_S768x64_S768x64 : S768x64.ShapeCasts S768x64
  bcast_S16384_S16384x1_0 : S16384.BroadcastsInDim S16384x1 (![0] : Fin 1 → Fin S16384x1.rank)
  dot_S768x1024_S1024x64_S768x64_1_0_0_1_n_n_wf : DotDims.WF S768x1024 S1024x64 S768x64 [1] [0] [0] [1] [] []
  gather_S5825x64_S16384x1_S16384x64_1_0_n_n_0_1_164_wf : GatherDims.WF S5825x64 S16384x1 S16384x64 [1] [0] [] [0] [] 1 ![1, 64]
  hrank0 : 0 < grid0.rank
  k0_mult1_dvd : ∀ i : grid0.Coords, 4096 ∣ (k0_mult1 i).toNat
  k0_mult2_dvd : 1024 ∣ k0_mult2.toNat
  k0_off1_inb : ∀ (r : Fin 4), ∀ a, (k0_off1 (BitVec.ofNat 32 r.val)) a + S768x1024.size a ≤ S768x4096.size a
  k0_mult3_dvd : ∀ i : grid0.Coords, 1024 ∣ (k0_mult3 i).toNat
  k0_off2_inb : ∀ i : grid0.Coords, ∀ (r : Fin 4), ∀ a, (k0_off2 i (BitVec.ofNat 32 r.val)) a + S1024x64.size a ≤ S16384x64.size a
  k0_mult4_dvd : 1024 ∣ k0_mult4.toNat
  k0_mult5_dvd : ∀ i : grid0.Coords, 1024 ∣ (k0_mult5 i).toNat
  k0_mult6_dvd : 1024 ∣ k0_mult6.toNat
  k0_mult7_dvd : ∀ i : grid0.Coords, 1024 ∣ (k0_mult7 i).toNat
  k0_mult8_dvd : 1024 ∣ k0_mult8.toNat
  k0_mult9_dvd : ∀ i : grid0.Coords, 1024 ∣ (k0_mult9 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S768x4096.size a < S5825x16384.size a
  hwx0_0 : ∀ i : grid0.Coords, EltTy.bits .f32 = 32 ∨ (Rect.unit (s := S5825x16384) (fun a => cc0_transform_0 i a * S768x4096.size a) (fun a => (Pipeline.Clip.of (cc0_transform_0 i a) (S768x4096.size a) (S5825x16384.size a)).extent (S768x4096.size a)) fun a => Pipeline.Clip.inb (Pipeline.Clip.ok_of (hstart0_0 i a))).WholeWords (EltTy.packing .f32)
  hwxs0_0 : ∀ i : grid0.Coords, EltTy.bits .f32 = 32 ∨ (Rect.unit (s := S768x4096) (fun _ => 0) (fun a => (Pipeline.Clip.of (cc0_transform_0 i a) (S768x4096.size a) (S5825x16384.size a)).extent (S768x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .bf16 = 32 ∨ (Rect.block (s := S16384x64) S16384x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S768x64.size a < S5825x64.size a
  hwx0_2 : ∀ i : grid0.Coords, EltTy.bits .f32 = 32 ∨ (Rect.unit (s := S5825x64) (fun a => cc0_transform_2 i a * S768x64.size a) (fun a => (Pipeline.Clip.of (cc0_transform_2 i a) (S768x64.size a) (S5825x64.size a)).extent (S768x64.size a)) fun a => Pipeline.Clip.inb (Pipeline.Clip.ok_of (hstart0_2 i a))).WholeWords (EltTy.packing .f32)
  hwxs0_2 : ∀ i : grid0.Coords, EltTy.bits .f32 = 32 ∨ (Rect.unit (s := S768x64) (fun _ => 0) (fun a => (Pipeline.Clip.of (cc0_transform_2 i a) (S768x64.size a) (S5825x64.size a)).extent (S768x64.size a)) fun a => (Nat.zero_add _).trans_le (Pipeline.Clip.extent_le (Pipeline.Clip.ok_of (hstart0_2 i a)))).WholeWords (EltTy.packing .f32)

variable [Facts₀]

def dot_S768x1024_S1024x64_S768x64_1_0_0_1_n_n : DotDims S768x1024 S1024x64 S768x64 where
  lhsContracting := [1]
  rhsContracting := [0]
  lhsNonContracting := [0]
  rhsNonContracting := [1]
  lhsBatch := []
  rhsBatch := []
  wf := dot_S768x1024_S1024x64_S768x64_1_0_0_1_n_n_wf
def gather_S5825x64_S16384x1_S16384x64_1_0_n_n_0_1_164 : GatherDims S5825x64 S16384x1 S16384x64 where
  offsetDims := [1]
  collapsedSliceDims := [0]
  operandBatchingDims := []
  startIndicesBatchingDims := []
  startIndexMap := [0]
  indexVectorDim := 1
  sliceSizes := ![1, 64]
  wf := gather_S5825x64_S16384x1_S16384x64_1_0_n_n_0_1_164_wf

abbrev win0_0 : Pipeline.Window sig grid0 :=
  Pipeline.Window.ofSpecClip (Memref.whole main_arg1) S768x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v1) S768x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S5825x16384 : Shape := ⟨2, ![5825, 16384]⟩
abbrev S16384x64 : Shape := ⟨2, ![16384, 64]⟩
abbrev S_ : Shape := ⟨0, ![]⟩
abbrev S16384x1 : Shape := ⟨2, ![16384, 1]⟩
abbrev S16384x16384 : Shape := ⟨2, ![16384, 16384]⟩

abbrev nBuf : Space → Nat
  | .hbm => 13
  | .vmem => 0
  | .smem => 0
  | _ => 0

abbrev bufTy : (tb : Table) → Fin (tcTables nBuf tb) → BufTy
  | .hbm, ⟨0, _⟩ => ⟨S16384, .i32⟩
  | .hbm, ⟨1, _⟩ => ⟨S5825x16384, .f32⟩
  | .hbm, ⟨2, _⟩ => ⟨S16384x64, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x16384, .f32⟩
  | .hbm, ⟨12, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  gather_S5825x16384_S16384x1_S16384x16384_1_0_n_n_0_1_116384_wf : GatherDims.WF S5825x16384 S16384x1 S16384x16384 [1] [0] [] [0] [] 1 ![1, 16384]
  dot_S16384x16384_S16384x64_S16384x64_1_0_0_1_n_n_wf : DotDims.WF S16384x16384 S16384x64 S16384x64 [1] [0] [0] [1] [] []

variable [Facts₀]

def gather_S5825x16384_S16384x1_S16384x16384_1_0_n_n_0_1_116384 : GatherDims S5825x16384 S16384x1 S16384x16384 where
  offsetDims := [1]
  collapsedSliceDims := [0]
  operandBatchingDims := []
  startIndicesBatchingDims := []
  startIndexMap := [0]
  indexVectorDim := 1
  sliceSizes := ![1, 16384]
  wf := gather_S5825x16384_S16384x1_S16384x16384_1_0_n_n_0_1_116384_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.BitsFrame.lean ====
/-
  The frame of the kernel's program read at bit patterns: every weakly fair execution terminates, nothing faults, and the
  three argument arrays end as they began. Nothing is said of what the result arrays hold: the body's loads and stores are
  inside their buffers whatever the buffers contain, so the proof data constrains no staging buffer's contents.
-/
import proofs.«407149_j25993142076017_3_alg».proof.Defs
import proofs.«407149_j25993142076017_3_alg».proof.Proof.Gen.Kernel
import proofs.«407149_j25993142076017_3_alg».proof.Proof.Gen.Kernel.Skeleton
import proofs.«407149_j25993142076017_3_alg».proof.Proof.Gen.Kernel.Launch
import proofs.«407149_j25993142076017_3_alg».proof.Proof.Gen.Kernel.Points
import proofs.«407149_j25993142076017_3_alg».proof.Proof.Gen.Kernel.Frame
import proofs.«407149_j25993142076017_3_alg».proof.Proof.Gen.Pre_finite_inputs
import Idealize.ShloMosaic.Lib.Pipeline.Kit
import Idealize.ShloMosaic.Lib.Pipeline.FrameSuffix
import Idealize.ShloMosaic.Lib.Tactic

noncomputable section

namespace Cert.BitsFrame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- The kernel's variants: none. -/
abbrev 𝒱₀ : Variants := Variants.none

/-! ## The body: for any contents of the three staging memrefs -/

/-- The kernel body on any three whole memrefs `a2`, `a3`, `a4`, their elements held at any contents: every load and
    the two stores lie inside their memrefs whatever these hold, so the body runs; it stores only into `a4`, so `a2` and
    `a3` come back as they were and `a4` at some contents. The one branch (second grid coordinate zero: reset `a4`
    first) is taken or not; either arm is loads and whole stores. -/
theorem body_run (c : Dev nD) (E : Set ℕ) (i : grid0.Coords)
    (a2 : Memref sig .tc .vmem S768x4096 .f32) (h2 : a2.IsWhole) (a3 : Memref sig .tc .vmem S16384x64 .bf16) (h3 : a3.IsWhole)
    (a4 : Memref sig .tc .vmem S768x64 .f32) (h4 : a4.IsWhole)
    (f0 : a2.view.ty.Contents (Elt F)) (f1 : a3.view.ty.Contents (Elt F)) (f2 : a4.view.ty.Contents (Elt F)) (K : PUnit → sProp 𝕄) :
    iprop(((a2.view.loc (c : Thread nD τ) ↦[a2.view.set]{fullShare} f0) ∗ (a3.view.loc (c : Thread nD τ) ↦[a3.view.set]{fullShare} f1)
            ∗ (a4.view.loc (c : Thread nD τ) ↦[a4.view.set]{fullShare} f2))
          ∗ (iprop((a2.view.loc (c : Thread nD τ) ↦[a2.view.set]{fullShare} f0) ∗ (a3.view.loc (c : Thread nD τ) ↦[a3.view.set]{fullShare} f1)
                  ∗ ∃ f2', (a4.view.loc (c : Thread nD τ) ↦[a4.view.set]{fullShare} f2')) -∗ K ⟨⟩))
      ⊢ wp frame (wpE (defs₀ (F := F)) 𝒱₀ c none) E (cc0__matmul_kernel i a2 h2 a3 h3 a4 h4) K := by
  iintro ⟨⟨H0, H1, H2⟩, Hk⟩
  sl_unfold [cc0__matmul_kernel]
  by_cases hc : Scalar.cmpi .ne (Scalar.extui (Scalar.cmpi .eq (BitVec.ofNat 32 (i 1).val) 0#32) : BitVec 32) 0#32 = 1#1
  · sl_exec
    sl_step
    iapply Hk
    isplitl [H0]; · iexact H0
    isplitl [H1]; · iexact H1
    iexists _; iexact H2
  · sl_exec
    sl_step
    iapply Hk
    isplitl [H0]; · iexact H0
    isplitl [H1]; · iexact H1
    iexists _; iexact H2

/-- The same over what the memrefs read: `a2` and `a3` come back reading what they read, `a4` reading something. -/
theorem sound_body (c : Dev nD) (E : Set ℕ) (i : grid0.Coords)
    (a2 : Memref sig .tc .vmem S768x4096 .f32) (h2 : a2.IsWhole) (a3 : Memref sig .tc .vmem S16384x64 .bf16) (h3 : a3.IsWhole)
    (a4 : Memref sig .tc .vmem S768x64 .f32) (h4 : a4.IsWhole)
    (X0 : S768x4096.Idx → Elt F .f32) (X1 : S16384x64.Idx → Elt F .bf16) (X2 : S768x64.Idx → Elt F .f32) (K : PUnit → sProp 𝕄) :
    iprop((owns (c : Thread nD τ) a2 fullShare X0 ∗ owns (c : Thread nD τ) a3 fullShare X1 ∗ owns (c : Thread nD τ) a4 fullShare X2)
          ∗ (iprop(owns (c : Thread nD τ) a2 fullShare X0 ∗ owns (c : Thread nD τ) a3 fullShare X1
                  ∗ ∃ X2', owns (c : Thread nD τ) a4 fullShare X2') -∗ K ⟨⟩))
      ⊢ wp frame (wpE (defs₀ (F := F)) 𝒱₀ c none) E (cc0__matmul_kernel i a2 h2 a3 h3 a4 h4) K := by
  unfold owns
  iintro ⟨⟨⟨%f0, %hf0, H0⟩, ⟨%f1, %hf1, H1⟩, ⟨%f2, %hf2, H2⟩⟩, Hk⟩
  iapply (body_run c E i a2 h2 a3 h3 a4 h4 f0 f1 f2 K)
  isplitl [H0 H1 H2]
  · isplitl [H0]; · iexact H0
    isplitl [H1]; · iexact H1
    iexact H2
  iintro ⟨H0, H1, ⟨%f2', H2⟩⟩
  iapply Hk
  isplitl [H0]
  · iexists f0; isplitr; · ipureintro; exact hf0
    iexact H0
  isplitl [H1]
  · iexists f1; isplitr; · ipureintro; exact hf1
    iexact H1
  · iexists a4.view.read (Elt F) f2', f2'; isplitr; · ipureintro; rfl
    iexact H2

/-! ## The proof data -/

variable (m : (ℓ : Loc nD τ sig) → Buf (Elt F) ℓ) (ρ : Dev nD → PrngReg)

/-- The relational proof data of the one pipeline on core `c`: the windows' arrays at their contents when the region is
    entered; of what the body leaves in a staging buffer nothing is asked; the invariant is the class's (the scoped rest
    and the generator register); full shares; nothing owed. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

theorem share_full (c : Dev nD) (w : Fin cfg0.W) : (rdat m c).share w = fullShare := by
  unfold RDat.share; split <;> rfl

/-- The body obligation of the relational proof data: whatever the three current staging buffers hold, the body runs and hands each back at
    some contents. -/
theorem body_obligation (c : Dev nD) : (rdat m c).BodyObligation (defs₀ (F := F)) 𝒱₀ () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2⟩
  iapply (sound_body (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (Y 0) (Y 1) (Y 2) _)
  isplitl [H0 H1 H2]
  · isplitl [H0]; · iexact H0
    isplitl [H1]; · iexact H1
    iexact H2
  iintro ⟨H0, H1, ⟨%X2, H2⟩⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  · iexists X2; isplitr; · ipureintro; trivial
    iexact H2

/-! ## The launch -/

/-- The buffers the host lines after the region write: the broadcast's result and the gather's. -/
abbrev T : Finset (Ref sig .tc) := {main_call0_v0, main_v2}

/-- Each host line after the region writes one of them. -/
theorem sfx_T : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.nullary_writes, StableHlo.unary_writes, StableHlo.binary_writes, StableHlo.ternary_writes, StableHlo.quaternary_writes, StableHlo.reshape_writes, StableHlo.binaryIndexed_writes, Finset.mem_singleton] at hb
    obtain rfl := Proc.devRef_injective _ hb
    decide

/-- The run: every weakly fair execution of @main terminates without a fault, the windows' arrays end at contents they
    may hold after the write-backs, and every other unscoped buffer the host lines do not write ends as the region found it. -/
theorem run_main [∀ e, Nonempty (Elt F e)] :
    θ_run defs (onTc (τ := τ) (main (F := F))) (s₀ m ρ) (RDat.FramePostR cfg0 (rdat m) T (Gen.V m)) :=
  Pipeline.RDat.θ_run_frame_around_T cfgs 0 Gen.launch0 defs₀ 𝒱₀ (rdat m) T m ρ main
    (hbody := body_obligation m) (hshare := share_full m) (howed := fun _ _ => rfl)
    (V₀ := Gen.V0 m) (opss := [hostOps1]) (hsub := sfx_sub) (hfresh := sfx_fresh) (hkeep := sfx_keeps) (hT := sfx_T)
    (hmain := Gen.hmain m 𝒱₀) (hA := fun _ _ => rfl) (hΦ := fun _ _ => rfl)

/-! ## The frame -/

/-- The word-level program runs to the end, faults nowhere, and leaves its three arguments unchanged: the staged argument
    (an input window's array) ends at its entry contents, the other two bypass the region and are written by no host line;
    and no host line before the region writes an argument. -/
theorem frame : Cert.frame_Kernel := fun m ρ _ =>
  (θ_run defs _ _).mono (fun _ h c =>
    ⟨((h c).2 main_arg0 (Finset.mem_sdiff.mpr ⟨Pipeline.mem_restRefs_of main_arg0 (by decide) (by decide), by decide⟩)).trans
        (Gen.V_main_arg0 m c),
      (h.arr_in c 0 rfl).trans (Gen.V_main_arg1 m c),
      ((h c).2 main_arg2 (Finset.mem_sdiff.mpr ⟨Pipeline.mem_restRefs_of main_arg2 (by decide) (by decide), by decide⟩)).trans
        (Gen.V_main_arg2 m c)⟩)
    (run_main (F := Bits) m ρ)

end Cert.BitsFrame

end
-- ==== Proof.Body.lean ====
/-
  The kernel body on any three whole staging buffers, in its two cases. The body first tests whether the point's second
  grid coordinate is zero. If it is (case A) it stores zeros into the result's buffer; in both cases it then loads four
  768 × 1024 column stretches of the first buffer and the four matching 1024 × 64 row stretches of the second, multiplies
  each pair into a zero accumulator, adds the four products up from zero, loads the result's buffer, adds the sum to it and
  stores that back. So the result's buffer ends holding `0 + s` in case A and `(what it held) + s` in case B, where `s` is the
  sum of the four products; the two input buffers are only read. Each case's run is stated with the list of
  stores it performs as its witness.
-/
import proofs.«407149_j25993142076017_3_alg».proof.Proof.Gen.KernelIdeal.Frame
import proofs.«407149_j25993142076017_3_alg».proof.Proof.Gen.KernelIdeal.Skeleton

set_option maxRecDepth 16384

noncomputable section

namespace Cert.KIBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the second coordinate is zero. -/
abbrev cond0 (i : grid0.Coords) : Prop :=
  (Scalar.cmpi .ne (Scalar.extui (Scalar.cmpi .eq (BitVec.ofNat 32 (i 1).val) 0#32)) 0#32) = 1#1

/-- It holds at the first of every four consecutive points: the grid is 8 × 4, walked row by row. -/
theorem hcond0 : ∀ t : Fin cfg0.N, cond0 (grid0.coords t) ↔ t.val % 4 = 0 :=
  (by decide +kernel : ∀ t : Fin grid0.N, cond0 (grid0.coords t) ↔ t.val % 4 = 0)

set_option maxHeartbeats 1000000 in
/-- Case A (second coordinate zero): from the two inputs' buffers at `x0`, `x1` and the result's at anything, the body runs
    and leaves the inputs' as they were and the result's with the stores found written into it. -/
noncomputable def kernelRun_A (c : Dev nD) (i : grid0.Coords) (arg2 : Memref sig .tc .vmem S768x4096 .f32) (harg2 : arg2.IsWhole)
    (arg3 : Memref sig .tc .vmem S16384x64 .bf16) (harg3 : arg3.IsWhole) (arg4 : Memref sig .tc .vmem S768x64 .f32) (harg4 : arg4.IsWhole)
    (hc0 : cond0 i) (x0 : Vec F S768x4096 .f32) (x1 : Vec F S16384x64 .bf16) :
    { L : List (View.Piece (Elt F) S768x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__matmul_kernel i arg2 harg2 arg3 harg3 arg4 harg4) K } := by
  refine ⟨?_, fun E K => ?run⟩
  case run =>
    simp only [cc0__matmul_kernel_eq_skeleton]; unfold cc0__matmul_kernel_skel
    simp only [k0_part1_eq_skeleton]; unfold k0_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- Case B (second coordinate not zero): the same, the result's buffer handed over at its running contents `xo`, which the
    body reads. -/
noncomputable def kernelRun_B (c : Dev nD) (i : grid0.Coords) (arg2 : Memref sig .tc .vmem S768x4096 .f32) (harg2 : arg2.IsWhole)
    (arg3 : Memref sig .tc .vmem S16384x64 .bf16) (harg3 : arg3.IsWhole) (arg4 : Memref sig .tc .vmem S768x64 .f32) (harg4 : arg4.IsWhole)
    (hc0 : ¬cond0 i) (x0 : Vec F S768x4096 .f32) (x1 : Vec F S16384x64 .bf16) (xo : Vec F S768x64 .f32) :
    { L : List (View.Piece (Elt F) S768x64 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__matmul_kernel i arg2 harg2 arg3 harg3 arg4 harg4) K } := by
  refine ⟨?_, fun E K => ?run⟩
  case run =>
    simp only [cc0__matmul_kernel_eq_skeleton]; unfold cc0__matmul_kernel_skel
    simp only [k0_part1_eq_skeleton]; unfold k0_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KIBody

end
-- ==== Proof.BodyValue.lean ====
/-
  What the kernel body leaves in the result's staging buffer, read at the ideal values at one entry `(p, e)`. With `x0` the
  768 × 4096 block of the table the point was handed, `x1` the whole 16384 × 64 matrix and `κ` the point's second grid
  coordinate, the four products of the body are, at `(p, e)`, the four 1024-term stretches

      S q = ∑ k < 1024, x0 (p, 1024 q + k) · x1 (4096 κ + 1024 q + k, e),        q = 0, 1, 2, 3,

  (a matrix product into a zero accumulator is the plain sum over the contracted index; the changes of float format are
  the identity). Case A leaves `0 + (0 + S 0 + S 1 + S 2 + S 3)`, case B `xo (p, e) + (0 + S 0 + S 1 + S 2 + S 3)` for the
  buffer's running contents `xo`; the zeros drop out. In particular entry `(p, e)` depends on row `p` of `x0` only, and in case
  B on `xo` at `(p, e)` only.
-/
import proofs.«407149_j25993142076017_3_alg».proof.Proof.Body
import Idealize.ShloMosaic.Lib.Pipeline.Value
import Idealize.ShloMosaic.Lib.ValueIdx
import Idealize.ShloMosaic.PureOps.Ideal.Laws

set_option maxRecDepth 16384

noncomputable section

open scoped BigOperators

namespace Cert.KIBody

open Cert.KernelIdeal Cert.KernelIdeal.Gen
open Idealize.ShloMosaic Idealize.ShloMosaic.TcCoe Idealize.ShloMosaic.Tactic Idealize.SL.Sem Idealize.ShloMosaic.ValueIdx

theorem hz : (![0, 0] : Fin 2 → Nat) = fun _ => 0 := funext fun a => by fin_cases a <;> rfl

/-! ## The body's matrix product at an entry -/

theorem mm_lhs_0 (i : S768x64.Idx) (q : dot_S768x1024_S1024x64_S768x64_1_0_0_1_n_n.contr.Idx) :
    (dot_S768x1024_S1024x64_S768x64_1_0_0_1_n_n.lhsIdx i q 0).val = (i 0).val := by
  unfold DotDims.lhsIdx
  rw [dif_neg (show ¬(0 : Fin S768x1024.rank) ∈ dot_S768x1024_S1024x64_S768x64_1_0_0_1_n_n.lhsBatch by decide), dif_pos (show (0 : Fin S768x1024.rank) ∈ dot_S768x1024_S1024x64_S768x64_1_0_0_1_n_n.lhsNonContracting by decide)]
  rfl
theorem mm_lhs_1 (i : S768x64.Idx) (q : dot_S768x1024_S1024x64_S768x64_1_0_0_1_n_n.contr.Idx) :
    (dot_S768x1024_S1024x64_S768x64_1_0_0_1_n_n.lhsIdx i q 1).val = (q ⟨0, by decide⟩).val :=
  dot_S768x1024_S1024x64_S768x64_1_0_0_1_n_n.lhsIdx_val_of_single rfl i q
theorem mm_rhs_0 (i : S768x64.Idx) (q : dot_S768x1024_S1024x64_S768x64_1_0_0_1_n_n.contr.Idx) :
    (dot_S768x1024_S1024x64_S768x64_1_0_0_1_n_n.rhsIdx i q 0).val = (q ⟨0, by decide⟩).val :=
  dot_S768x1024_S1024x64_S768x64_1_0_0_1_n_n.rhsIdx_val_of_single rfl i q
theorem mm_rhs_1 (i : S768x64.Idx) (q : dot_S768x1024_S1024x64_S768x64_1_0_0_1_n_n.contr.Idx) :
    (dot_S768x1024_S1024x64_S768x64_1_0_0_1_n_n.rhsIdx i q 1).val = (i 1).val := by
  unfold DotDims.rhsIdx
  rw [dif_neg (show ¬(1 : Fin S1024x64.rank) ∈ dot_S768x1024_S1024x64_S768x64_1_0_0_1_n_n.rhsBatch by decide), dif_pos (show (1 : Fin S1024x64.rank) ∈ dot_S768x1024_S1024x64_S768x64_1_0_0_1_n_n.rhsNonContracting by decide)]
  rfl

/-- A 768 × 1024 by 1024 × 64 product into a zero accumulator, at `(p, e)`: row `p` against column `e`. -/
theorem mm_apply (l : FVec Ideal S768x1024 .bf16) (r : FVec Ideal S1024x64 .bf16) (p : Fin 768) (e : Fin 64) :
    matmul dot_S768x1024_S1024x64_S768x64_1_0_0_1_n_n none l r (constant S768x64 .f32 0x00000000#32) (ix2 p e)
      = ∑ k : Fin 1024, l (ix2 p k) * r (ix2 k e) := by
  refine (Ideal.matmul_constant_zero_apply dot_S768x1024_S1024x64_S768x64_1_0_0_1_n_n none l r (ix2 p e)).trans ?_
  rw [← Equiv.sum_comp (ValueIdx.contrEquiv1 dot_S768x1024_S1024x64_S768x64_1_0_0_1_n_n 1024 rfl rfl).symm]
  refine Finset.sum_congr rfl fun k _ => ?_
  have hk := ValueIdx.contrEquiv1_symm_val dot_S768x1024_S1024x64_S768x64_1_0_0_1_n_n 1024 rfl rfl k
  have el : dot_S768x1024_S1024x64_S768x64_1_0_0_1_n_n.lhsIdx (ix2 p e) ((ValueIdx.contrEquiv1 dot_S768x1024_S1024x64_S768x64_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S768x1024_S1024x64_S768x64_1_0_0_1_n_n.rhsIdx (ix2 p e) ((ValueIdx.contrEquiv1 dot_S768x1024_S1024x64_S768x64_1_0_0_1_n_n 1024 rfl rfl).symm k) = ix2 k e := funext fun a => Fin.ext (by
    match a with
    | ⟨0, _⟩ => exact (mm_rhs_0 _ _).trans hk
    | ⟨1, _⟩ => exact mm_rhs_1 _ _)
  rw [el, er]

/-! ## The loads: a column stretch of the block, a row stretch of the matrix -/

/-- The second grid coordinate is below 4. -/
theorem kappa_lt (i : grid0.Coords) : (i 1).val < 4 := (i 1).isLt

/-- The row at which the body reads the matrix for each of its four stretches, as it computes it from the coordinates:
    `4096 κ`, `4096 κ + 1024`, `4096 κ + 2048`, `4096 κ + 3072`. -/
theorem rowOff0 (i : grid0.Coords) :
    BitVec.toNat (Scalar.indexCast (Scalar.addi (Scalar.muli (BitVec.ofNat 32 (i 1).val) 4096#32) (Scalar.muli 0#32 1024#32)))
      = (i 1).val * 4096 + 0 :=
  (by decide +kernel : ∀ i : grid0.Coords,
    BitVec.toNat (Scalar.indexCast (Scalar.addi (Scalar.muli (BitVec.ofNat 32 (i 1).val) 4096#32) (Scalar.muli 0#32 1024#32)))
      = (i 1).val * 4096 + 0) i
theorem rowOff1 (i : grid0.Coords) :
    BitVec.toNat (Scalar.indexCast (Scalar.addi (Scalar.muli (BitVec.ofNat 32 (i 1).val) 4096#32) (Scalar.muli 1#32 1024#32)))
      = (i 1).val * 4096 + 1024 :=
  (by decide +kernel : ∀ i : grid0.Coords,
    BitVec.toNat (Scalar.indexCast (Scalar.addi (Scalar.muli (BitVec.ofNat 32 (i 1).val) 4096#32) (Scalar.muli 1#32 1024#32)))
      = (i 1).val * 4096 + 1024) i
theorem rowOff2 (i : grid0.Coords) :
    BitVec.toNat (Scalar.indexCast (Scalar.addi (Scalar.muli (BitVec.ofNat 32 (i 1).val) 4096#32) (Scalar.muli 2#32 1024#32)))
      = (i 1).val * 4096 + 2048 :=
  (by decide +kernel : ∀ i : grid0.Coords,
    BitVec.toNat (Scalar.indexCast (Scalar.addi (Scalar.muli (BitVec.ofNat 32 (i 1).val) 4096#32) (Scalar.muli 2#32 1024#32)))
      = (i 1).val * 4096 + 2048) i
theorem rowOff3 (i : grid0.Coords) :
    BitVec.toNat (Scalar.indexCast (Scalar.addi (Scalar.muli (BitVec.ofNat 32 (i 1).val) 4096#32) (Scalar.muli 3#32 1024#32)))
      = (i 1).val * 4096 + 3072 :=
  (by decide +kernel : ∀ i : grid0.Coords,
    BitVec.toNat (Scalar.indexCast (Scalar.addi (Scalar.muli (BitVec.ofNat 32 (i 1).val) 4096#32) (Scalar.muli 3#32 1024#32)))
      = (i 1).val * 4096 + 3072) i

/-- A 768 × 1024 load of the block at column offset `o`, at `(p, k)`: the block at `(p, o + k)`. -/
theorem ld_cols (x0 : Vec Ideal S768x4096 .f32) (off : Fin 2 → Nat) (o : Nat) (ho : o + 1024 ≤ 4096) (hoff : off = ![0, o])
    (inb : ∀ a, off a + (![768, 1024] : Fin 2 → Nat) a ≤ S768x4096.size a) (p : Fin 768) (k : Fin 1024) :
    View.ld (Val := Elt Ideal) (e' := .f32) x0 (Rect.unit (s := S768x4096) off ![768, 1024] inb) (ix2 p k)
      = x0 (ix2 p (⟨o + k.val, by omega⟩ : Fin 4096)) := by
  subst hoff
  show x0 _ = x0 _
  congr 1
  funext a
  refine Fin.ext ?_
  match a with
  | ⟨0, _⟩ => show 0 + 1 * p.val = p.val; omega
  | ⟨1, _⟩ => show o + 1 * k.val = o + k.val; omega

/-- A 1024 × 64 load of the matrix at row offset `o`, at `(k, e)`: the matrix at `(o + k, e)`. -/
theorem ld_rows (x1 : Vec Ideal S16384x64 .bf16) (off : Fin 2 → Nat) (o : Nat) (ho : o + 1024 ≤ 16384) (hoff : off = ![o, 0])
    (inb : ∀ a, off a + (![1024, 64] : Fin 2 → Nat) a ≤ S16384x64.size a) (k : Fin 1024) (e : Fin 64) :
    View.ld (Val := Elt Ideal) (e' := .bf16) x1 (Rect.unit (s := S16384x64) off ![1024, 64] inb) (ix2 k e)
      = x1 (ix2 (⟨o + k.val, by omega⟩ : Fin 16384) e) := by
  subst hoff
  show x1 _ = x1 _
  congr 1
  funext a
  refine Fin.ext ?_
  match a with
  | ⟨0, _⟩ => show o + 1 * k.val = o + k.val; omega
  | ⟨1, _⟩ => show 0 + 1 * e.val = e.val; omega

/-! ## The stretches and the two cases' values -/

/-- The 1024-term stretch at column offset `o` of the point's row-by-column sum at `(p, e)`. -/
def stretch (i : grid0.Coords) (x0 : Vec Ideal S768x4096 .f32) (x1 : Vec Ideal S16384x64 .bf16) (o : Nat) (ho : o + 1024 ≤ 4096)
    (p : Fin 768) (e : Fin 64) : EReal :=
  ∑ k : Fin 1024, x0 (ix2 p (⟨o + k.val, by omega⟩ : Fin 4096))
    * x1 (ix2 (⟨(i 1).val * 4096 + o + k.val, by have := kappa_lt i; omega⟩ : Fin 16384) e)

/-- The point's whole contribution at `(p, e)`: the four stretches, added in order. -/
def pointSum (i : grid0.Coords) (x0 : Vec Ideal S768x4096 .f32) (x1 : Vec Ideal S16384x64 .bf16) (p : Fin 768) (e : Fin 64) : EReal :=
  stretch i x0 x1 0 (by omega) p e + stretch i x0 x1 1024 (by omega) p e + stretch i x0 x1 2048 (by omega) p e
    + stretch i x0 x1 3072 (by omega) p e

variable {F : FTy → Type} [FloatOps F]

/-- Case A's stores cover the result's buffer. -/
theorem cover_A (c : Dev nD) (i : grid0.Coords) (a2 : Memref sig .tc .vmem S768x4096 .f32) (h2 : a2.IsWhole)
    (a3 : Memref sig .tc .vmem S16384x64 .bf16) (h3 : a3.IsWhole) (a4 : Memref sig .tc .vmem S768x64 .f32) (h4 : a4.IsWhole)
    (hc : cond0 i) (x0 : Vec F S768x4096 .f32) (x1 : Vec F S16384x64 .bf16) (y : S768x64.Idx) :
    ∃ pc ∈ (kernelRun_A c i a2 h2 a3 h3 a4 h4 hc x0 x1).1, y ∈ pc.1.set :=
  View.cover_of_tiledL (kernelRun_A c i a2 h2 a3 h3 a4 h4 hc x0 x1).1 S768x64.size (by sl_kernel_rfl) y

/-- Case B's store covers it. -/
theorem cover_B (c : Dev nD) (i : grid0.Coords) (a2 : Memref sig .tc .vmem S768x4096 .f32) (h2 : a2.IsWhole)
    (a3 : Memref sig .tc .vmem S16384x64 .bf16) (h3 : a3.IsWhole) (a4 : Memref sig .tc .vmem S768x64 .f32) (h4 : a4.IsWhole)
    (hc : ¬cond0 i) (x0 : Vec F S768x4096 .f32) (x1 : Vec F S16384x64 .bf16) (xo : Vec F S768x64 .f32) (y : S768x64.Idx) :
    ∃ pc ∈ (kernelRun_B c i a2 h2 a3 h3 a4 h4 hc x0 x1 xo).1, y ∈ pc.1.set :=
  View.cover_of_tiledL (kernelRun_B c i a2 h2 a3 h3 a4 h4 hc x0 x1 xo).1 S768x64.size (by sl_kernel_rfl) y

/-- One staging buffer of the result's window, through which the contents are stated (the choice does not matter). -/
abbrev VO : View sig .tc .vmem S768x64 .f32 := (Memref.whole cc0_stg2_0 : Memref sig .tc .vmem S768x64 .f32).view

/-- What case A leaves in the result's buffer: its stores read back. -/
def out_A (c : Dev nD) (i : grid0.Coords) (a2 : Memref sig .tc .vmem S768x4096 .f32) (h2 : a2.IsWhole)
    (a3 : Memref sig .tc .vmem S16384x64 .bf16) (h3 : a3.IsWhole) (a4 : Memref sig .tc .vmem S768x64 .f32) (h4 : a4.IsWhole)
    (hc : cond0 i) (x0 : Vec F S768x4096 .f32) (x1 : Vec F S16384x64 .bf16) : Vec F S768x64 .f32 :=
  VO.read (Elt F) (VO.writes (Elt F) VO.junk (kernelRun_A c i a2 h2 a3 h3 a4 h4 hc x0 x1).1)

/-- What case B leaves there. -/
def out_B (c : Dev nD) (i : grid0.Coords) (a2 : Memref sig .tc .vmem S768x4096 .f32) (h2 : a2.IsWhole)
    (a3 : Memref sig .tc .vmem S16384x64 .bf16) (h3 : a3.IsWhole) (a4 : Memref sig .tc .vmem S768x64 .f32) (h4 : a4.IsWhole)
    (hc : ¬cond0 i) (x0 : Vec F S768x4096 .f32) (x1 : Vec F S16384x64 .bf16) (xo : Vec F S768x64 .f32) : Vec F S768x64 .f32 :=
  VO.read (Elt F) (VO.writes (Elt F) VO.junk (kernelRun_B c i a2 h2 a3 h3 a4 h4 hc x0 x1 xo).1)

theorem zero_word : (FloatOps.ofBits (F := Ideal) .f32 0x00000000#32 : EReal) = 0 := Ideal.ofBits_zero_f32

/-- Case A at `(p, e)`: the point's sum. -/
theorem out_A_apply (c : Dev nD) (i : grid0.Coords) (a2 : Memref sig .tc .vmem S768x4096 .f32) (h2 : a2.IsWhole)
    (a3 : Memref sig .tc .vmem S16384x64 .bf16) (h3 : a3.IsWhole) (a4 : Memref sig .tc .vmem S768x64 .f32) (h4 : a4.IsWhole)
    (hc : cond0 i) (x0 : Vec Ideal S768x4096 .f32) (x1 : Vec Ideal S16384x64 .bf16) (p : Fin 768) (e : Fin 64) :
    out_A (F := Ideal) c i a2 h2 a3 h3 a4 h4 hc x0 x1 (ix2 p e) = pointSum i x0 x1 p e := by
  unfold out_A
  rw [View.read_writes_eq_canon _ _ _ (cover_A c i a2 h2 a3 h3 a4 h4 hc x0 x1)]
  unfold kernelRun_A
  dsimp only
  sl_unfold_words
  rw [View.canon_cons_unit_zero (S := S768x64) hz, View.readCov_unit_zero (S := S768x64) _ hz]
  unfold k0_pay1 k0_pay3 k0_pay4 k0_pay2
  simp only [View.readAt_eq_ld, h2.read_unread, h3.read_unread, shapeCast_self, addf_apply, mm_apply, broadcast_apply, truncf_apply,
    zero_word, zero_add]
  unfold pointSum
  have hk := kappa_lt i
  congr 1
  · congr 1
    · congr 1
      · unfold stretch
        refine Finset.sum_congr rfl fun k _ => ?_
        exact congrArg₂ (· * ·) (ld_cols x0 _ 0 (by omega) rfl _ p k) (ld_rows x1 _ ((i 1).val * 4096 + 0) (by omega) (congrArg (fun o : Nat => (![o, 0] : Fin 2 → Nat)) (rowOff0 i)) _ k e)
      · unfold stretch
        refine Finset.sum_congr rfl fun k _ => ?_
        exact congrArg₂ (· * ·) (ld_cols x0 _ 1024 (by omega) rfl _ p k) (ld_rows x1 _ ((i 1).val * 4096 + 1024) (by omega) (congrArg (fun o : Nat => (![o, 0] : Fin 2 → Nat)) (rowOff1 i)) _ k e)
    · unfold stretch
      refine Finset.sum_congr rfl fun k _ => ?_
      exact congrArg₂ (· * ·) (ld_cols x0 _ 2048 (by omega) rfl _ p k) (ld_rows x1 _ ((i 1).val * 4096 + 2048) (by omega) (congrArg (fun o : Nat => (![o, 0] : Fin 2 → Nat)) (rowOff2 i)) _ k e)
  · unfold stretch
    refine Finset.sum_congr rfl fun k _ => ?_
    exact congrArg₂ (· * ·) (ld_cols x0 _ 3072 (by omega) rfl _ p k) (ld_rows x1 _ ((i 1).val * 4096 + 3072) (by omega) (congrArg (fun o : Nat => (![o, 0] : Fin 2 → Nat)) (rowOff3 i)) _ k e)

/-- Case B at `(p, e)`: the running contents there plus the point's sum. -/
theorem out_B_apply (c : Dev nD) (i : grid0.Coords) (a2 : Memref sig .tc .vmem S768x4096 .f32) (h2 : a2.IsWhole)
    (a3 : Memref sig .tc .vmem S16384x64 .bf16) (h3 : a3.IsWhole) (a4 : Memref sig .tc .vmem S768x64 .f32) (h4 : a4.IsWhole)
    (hc : ¬cond0 i) (x0 : Vec Ideal S768x4096 .f32) (x1 : Vec Ideal S16384x64 .bf16) (xo : Vec Ideal S768x64 .f32) (p : Fin 768) (e : Fin 64) :
    out_B (F := Ideal) c i a2 h2 a3 h3 a4 h4 hc x0 x1 xo (ix2 p e) = xo (ix2 p e) + pointSum i x0 x1 p e := by
  unfold out_B
  rw [View.read_writes_eq_canon _ _ _ (cover_B c i a2 h2 a3 h3 a4 h4 hc x0 x1 xo)]
  unfold kernelRun_B
  dsimp only
  rw [View.canon_unit_zero hz]
  unfold k0_pay1 k0_pay3 k0_pay4
  simp only [View.readAt_eq_ld, h2.read_unread, h3.read_unread, h4.read_unread, View.ld_unit_zero (S := S768x64) hz, shapeCast_self,
    addf_apply, mm_apply, broadcast_apply, truncf_apply, zero_word, zero_add]
  congr 1
  unfold pointSum
  have hk := kappa_lt i
  congr 1
  · congr 1
    · congr 1
      · unfold stretch
        refine Finset.sum_congr rfl fun k _ => ?_
        exact congrArg₂ (· * ·) (ld_cols x0 _ 0 (by omega) rfl _ p k) (ld_rows x1 _ ((i 1).val * 4096 + 0) (by omega) (congrArg (fun o : Nat => (![o, 0] : Fin 2 → Nat)) (rowOff0 i)) _ k e)
      · unfold stretch
        refine Finset.sum_congr rfl fun k _ => ?_
        exact congrArg₂ (· * ·) (ld_cols x0 _ 1024 (by omega) rfl _ p k) (ld_rows x1 _ ((i 1).val * 4096 + 1024) (by omega) (congrArg (fun o : Nat => (![o, 0] : Fin 2 → Nat)) (rowOff1 i)) _ k e)
    · unfold stretch
      refine Finset.sum_congr rfl fun k _ => ?_
      exact congrArg₂ (· * ·) (ld_cols x0 _ 2048 (by omega) rfl _ p k) (ld_rows x1 _ ((i 1).val * 4096 + 2048) (by omega) (congrArg (fun o : Nat => (![o, 0] : Fin 2 → Nat)) (rowOff2 i)) _ k e)
  · unfold stretch
    refine Finset.sum_congr rfl fun k _ => ?_
    exact congrArg₂ (· * ·) (ld_cols x0 _ 3072 (by omega) rfl _ p k) (ld_rows x1 _ ((i 1).val * 4096 + 3072) (by omega) (congrArg (fun o : Nat => (![o, 0] : Fin 2 → Nat)) (rowOff3 i)) _ k e)

end Cert.KIBody

end
-- ==== Proof.IdealRun.lean ====
/-
  The run of the kernel's program at the ideal values. The region walks an 8 × 4 grid; at point `(ι, κ)` it fetches the
  768 × 4096 block `(ι, κ)` of the 5825 × 16384 table — the last row of blocks overhangs the table by 319 rows, which a
  clipped fetch leaves at contents nothing names —, holds the whole 16384 × 64 matrix, and accumulates into the 768 × 64
  block `ι` of the result, which stays in its staging buffer over the four points of a row and is written back, clipped to
  the result's 5825 rows, after the fourth. The proof data names what the result's buffer holds after each point by
  recursion on the point (`outsAt`): the reset case's value at the first point of a row, the accumulating case's value over
  what the point before left at the others, each computed from the table's block filled out with zeros. What the body really
  holds past the table's end is something else; it does not matter, because entry `(p, e)` of either case's value depends on
  row `p` of the block and on the running contents at `(p, e)` only, and the obligation is stated on the rows inside the
  table and the result.
-/
import proofs.«407149_j25993142076017_3_alg».proof.Proof.BodyValue

set_option maxRecDepth 16384

noncomputable section

open scoped BigOperators

namespace Cert.KIRun

open Cert.KernelIdeal Cert.KernelIdeal.Gen Cert.KIBody
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The staging memrefs at a point, and the blocks' extents -/

abbrev ms0 (t : Fin cfg0.N) : Memref sig .tc .vmem S768x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16384x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S768x64 .f32 := win0_2.stage (cfg0.slots t 2)
abbrev hs2 (t : Fin cfg0.N) : (ms2 t).IsWhole := hstage0_2 ((cfg0.slots t 2).cast nbuf0_2)

/-- The table's and the result's blocks are cut alike on the row axis, and not at all on the other. -/
theorem xs_rows : ∀ t : Fin cfg0.N, win0_0.xsize (grid0.coords t) 0 = win0_2.xsize (grid0.coords t) 0 :=
  (by decide +kernel : ∀ t : Fin grid0.N, win0_0.xsize (grid0.coords t) 0 = win0_2.xsize (grid0.coords t) 0)
theorem xs0_cols : ∀ t : Fin cfg0.N, win0_0.xsize (grid0.coords t) 1 = 4096 :=
  (by decide +kernel : ∀ t : Fin grid0.N, win0_0.xsize (grid0.coords t) 1 = 4096)
theorem xs2_cols : ∀ t : Fin cfg0.N, win0_2.xsize (grid0.coords t) 1 = 64 :=
  (by decide +kernel : ∀ t : Fin grid0.N, win0_2.xsize (grid0.coords t) 1 = 64)
/-- Within a row of the grid the cut does not change. -/
theorem xs2_prev : ∀ t : Fin cfg0.N, t.val % 4 ≠ 0 →
    win0_2.xsize (grid0.coords ⟨t.val - 1, Nat.lt_of_le_of_lt (Nat.sub_le _ _) t.isLt⟩) = win0_2.xsize (grid0.coords t) :=
  (by decide +kernel : ∀ t : Fin grid0.N, t.val % 4 ≠ 0 →
    win0_2.xsize (grid0.coords ⟨t.val - 1, Nat.lt_of_le_of_lt (Nat.sub_le _ _) t.isLt⟩) = win0_2.xsize (grid0.coords t))

/-! ## Filled blocks at an entry the transfer moves -/

section Fill
variable {G : Pipeline.Grid} (w : Pipeline.Window sig G) {α : Type}

/-- At an entry the transfer moves, a filled block does not depend on the filler. -/
theorem fill_eq_of_moved (i : G.Coords) (d d' : w.block.Idx → α) (g : (w.xblock i).Idx → α) (j : w.block.Idx)
    (h : w.moved i j = true) : w.fill i d g j = w.fill i d' g j := by
  unfold Window.fill; rw [dif_pos h, dif_pos h]

/-- At such an entry a block filled with the moved part of `X` is `X`. -/
theorem fill_cut_of_moved (i : G.Coords) (d X : w.block.Idx → α) (j : w.block.Idx) (h : w.moved i j = true) :
    w.fill i d (w.cut i X) j = X j := by
  unfold Window.fill; rw [dif_pos h]

end Fill

/-! ## The proof data -/

/-- The table's block at point `t` as the body's value is computed from it: its part inside the table, filled out with
    zeros. -/
def blk0 (c : Dev nD) (t : Fin cfg0.N) : Vec Ideal S768x4096 .f32 :=
  win0_0.fill (grid0.coords t) (fun _ => (Scalar.ofBits (F := Ideal) .f32 0#32 : Elt Ideal .f32)) (iblk m c 0 t)

/-- What the result's staging buffer holds after the body at position `n`: the reset case's value at the first point of a
    grid row, the accumulating case's over what the point before left at the others. -/
def outsAt (c : Dev nD) : (n : ℕ) → n < cfg0.N → Vec Ideal S768x64 .f32
  | 0, hn => out_A c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((hcond0 ⟨0, hn⟩).mpr (Nat.zero_mod _)) (blk0 m c ⟨0, hn⟩) (iblk m c 1 ⟨0, hn⟩)
  | n + 1, hn =>
    if h0 : (n + 1) % 4 = 0 then
      out_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond0 ⟨n + 1, hn⟩).mpr h0) (blk0 m c ⟨n + 1, hn⟩) (iblk m c 1 ⟨n + 1, hn⟩)
    else
      out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond0 ⟨n + 1, hn⟩).mp h)) (blk0 m c ⟨n + 1, hn⟩) (iblk m c 1 ⟨n + 1, hn⟩) (outsAt c n (Nat.lt_of_succ_lt hn))

/-- `outsAt` at the first point of a grid row. -/
theorem outsAt_A (c : Dev nD) (t : Fin cfg0.N) (h0 : t.val % 4 = 0) :
    outsAt m c t.val t.isLt = out_A c (grid0.coords t) (ms0 t) (hs0 t) (ms1 t) (hs1 t) (ms2 t) (hs2 t) ((hcond0 t).mpr h0)
      (blk0 m c t) (iblk m c 1 t) := by
  obtain ⟨n, hn⟩ := t
  cases n with
  | zero => exact rfl
  | succ n => exact (dif_pos h0).trans rfl

/-- `outsAt` at the other points: over what the point before left. -/
theorem outsAt_B (c : Dev nD) (t : Fin cfg0.N) (h0 : ¬t.val % 4 = 0) :
    outsAt m c t.val t.isLt = out_B c (grid0.coords t) (ms0 t) (hs0 t) (ms1 t) (hs1 t) (ms2 t) (hs2 t) (fun h => h0 ((hcond0 t).mp h))
      (blk0 m c t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the one pipeline on core `c`: the arrays as the region finds them; after the body at point `t` the
    table's buffer at the zero-filled block, the matrix's at the matrix, the result's at `outsAt`; the class's invariant;
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => blk0 m c t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = blk0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t.val t.isLt := by dsimp only [dats]

/-! ## What the body finds in each buffer -/

/-- The table's buffer was just fetched: the block on the rows inside the table, anything past them. -/
theorem before0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- The matrix's buffer holds the matrix at every point, fetched there or not. -/
theorem before1 (c : Dev nD) (t : Fin cfg0.N) (d) : (dats m 0 c).before 1 t d = iblk m c 1 t :=
  before0_1_of m (dats m 0 c) (A_eq m c 1) (after0_1 m c) t d

/-- At the first point of a grid row the result's buffer holds anything: the region has just begun, or the buffer has just
    been written back. -/
theorem before2_A (c : Dev nD) (t : Fin cfg0.N) (h0 : t.val % 4 = 0) (d) : (dats m 0 c).before 2 t d = d := by
  refine (dats m 0 c).before_out_reset 2 rfl t ?_ d
  by_cases ht : t.val = 0
  · exact .inl ht
  · exact .inr ⟨ht, (flush0_2 _).mpr (by dsimp only; omega)⟩

/-- At the other points it holds what the point before left, on the rows the write-back moves. -/
theorem before2_B (c : Dev nD) (t : Fin cfg0.N) (h0 : ¬t.val % 4 = 0) (d) :
    (dats m 0 c).before 2 t d
      = win0_2.fill (grid0.coords ⟨t.val - 1, Nat.lt_of_le_of_lt (Nat.sub_le _ _) t.isLt⟩) d
          (win0_2.cut (grid0.coords ⟨t.val - 1, Nat.lt_of_le_of_lt (Nat.sub_le _ _) t.isLt⟩)
            (outsAt m c (t.val - 1) (Nat.lt_of_le_of_lt (Nat.sub_le _ _) t.isLt))) := by
  rw [(dats m 0 c).before_out_acc 2 rfl t (by omega)
    (Bool.eq_false_iff.mpr fun h => by have := (flush0_2 _).mp h; dsimp only at this; omega) (fun _ => rfl) d]
  unfold Dat.kept
  rw [after0_2]

/-! ## Entries the transfers move -/

theorem moved0 (t : Fin cfg0.N) (p : Fin 768) (col : Fin 4096) (hp : p.val < win0_2.xsize (grid0.coords t) 0) :
    win0_0.moved (grid0.coords t) (ix2 p col) = true :=
  (win0_0.moved_iff _ _).mpr fun a => by
    match a with
    | ⟨0, _⟩ => show p.val < win0_0.xsize (grid0.coords t) 0; rw [xs_rows t]; exact hp
    | ⟨1, _⟩ => show col.val < win0_0.xsize (grid0.coords t) 1; rw [xs0_cols t]; exact col.isLt

/-- The point's sum at `(p, e)` reads row `p` of the block only. -/
theorem pointSum_congr (i : grid0.Coords) (x0 x0' : Vec Ideal S768x4096 .f32) (x1 : Vec Ideal S16384x64 .bf16) (p : Fin 768) (e : Fin 64)
    (h : ∀ col : Fin 4096, x0 (ix2 p col) = x0' (ix2 p col)) : pointSum i x0 x1 p e = pointSum i x0' x1 p e := by
  unfold pointSum stretch
  simp only [h]

/-- An entry of the result's block that the write-back moves, by its coordinates. -/
theorem xinj2_eq (t : Fin cfg0.N) (j : (win0_2.xblock (grid0.coords t)).Idx) :
    win0_2.xinj (grid0.coords t) j
      = ix2 (⟨(j 0).val, Nat.lt_of_lt_of_le (j 0).isLt (win0_2.xsize_le (grid0.coords t) 0)⟩ : Fin 768)
          (⟨(j 1).val, Nat.lt_of_lt_of_le (j 1).isLt (win0_2.xsize_le (grid0.coords t) 1)⟩ : Fin 64) :=
  funext fun a => by match a with | ⟨0, _⟩ => rfl | ⟨1, _⟩ => rfl

/-- The table's zero-filled block, cut back, is the block. -/
theorem cut_blk0 (c : Dev nD) (t : Fin cfg0.N) : win0_0.cut (grid0.coords t) (blk0 m c t) = iblk m c 0 t :=
  win0_0.cut_fill _ _ _

/-- Case A: on the rows the write-back moves, what the body leaves from the block as it really is (anything past the
    table's end) is what it would leave from the zero-filled block. -/
theorem cut_A (c : Dev nD) (t : Fin cfg0.N) (h0 : t.val % 4 = 0) (d0 : S768x4096.Idx → Elt Ideal .f32) :
    win0_2.cut (grid0.coords t) (out_A c (grid0.coords t) (ms0 t) (hs0 t) (ms1 t) (hs1 t) (ms2 t) (hs2 t) ((hcond0 t).mpr h0)
        (win0_0.fill (grid0.coords t) d0 (iblk m c 0 t)) (iblk m c 1 t))
      = win0_2.cut (grid0.coords t) (outsAt m c t.val t.isLt) := by
  rw [outsAt_A m c t h0]
  funext j
  show out_A _ _ _ _ _ _ _ _ _ _ _ (win0_2.xinj (grid0.coords t) j) = out_A _ _ _ _ _ _ _ _ _ _ _ (win0_2.xinj (grid0.coords t) j)
  rw [xinj2_eq t j, out_A_apply, out_A_apply]
  exact pointSum_congr _ _ _ _ _ _ fun col => fill_eq_of_moved win0_0 _ _ _ _ _ (moved0 t _ col (j 0).isLt)

/-- Case B: likewise, the running contents being what the point before left on those rows and anything past them. -/
theorem cut_B (c : Dev nD) (t : Fin cfg0.N) (h0 : ¬t.val % 4 = 0) (d0 : S768x4096.Idx → Elt Ideal .f32) (d2 : S768x64.Idx → Elt Ideal .f32) :
    win0_2.cut (grid0.coords t) (out_B c (grid0.coords t) (ms0 t) (hs0 t) (ms1 t) (hs1 t) (ms2 t) (hs2 t) (fun h => h0 ((hcond0 t).mp h))
        (win0_0.fill (grid0.coords t) d0 (iblk m c 0 t)) (iblk m c 1 t)
        (win0_2.fill (grid0.coords ⟨t.val - 1, Nat.lt_of_le_of_lt (Nat.sub_le _ _) t.isLt⟩) d2
          (win0_2.cut (grid0.coords ⟨t.val - 1, Nat.lt_of_le_of_lt (Nat.sub_le _ _) t.isLt⟩)
            (outsAt m c (t.val - 1) (Nat.lt_of_le_of_lt (Nat.sub_le _ _) t.isLt)))))
      = win0_2.cut (grid0.coords t) (outsAt m c t.val t.isLt) := by
  rw [outsAt_B m c t h0]
  funext j
  show out_B _ _ _ _ _ _ _ _ _ _ _ _ (win0_2.xinj (grid0.coords t) j) = out_B _ _ _ _ _ _ _ _ _ _ _ _ (win0_2.xinj (grid0.coords t) j)
  rw [xinj2_eq t j, out_B_apply, out_B_apply]
  congr 1
  · refine fill_cut_of_moved win0_2 _ d2 _ _ ((win0_2.moved_iff _ _).mpr fun a => ?_)
    rw [xs2_prev t h0]
    match a with
    | ⟨0, _⟩ => exact (j 0).isLt
    | ⟨1, _⟩ => exact (j 1).isLt
  · exact pointSum_congr _ _ _ _ _ _ fun col => fill_eq_of_moved win0_0 _ _ _ _ _ (moved0 t _ col (j 0).isLt)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the two clipped windows' buffers stated on the moved rows only. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t)))))

set_option maxHeartbeats 1000000 in
/-- The body at any point: the case the point is in is decided by its position in the grid row; the case's run applies to
    the buffers as they are; the table's and the matrix's buffers come back as they were, and what the result's buffer
    holds agrees with `outsAt` on the moved rows (`cut_A`, `cut_B`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0_0, after0_1, after0_2, cut_blk0]
  by_cases h0 : t.val % 4 = 0
  · simp only [before2_A m c t h0]
    iintro ⟨HΦ, Ho, ⟨%d0, H0⟩, ⟨%d1, H1⟩, ⟨%d2, H2⟩⟩
    iapply ((kernelRun_A c (grid0.coords t) _ _ _ _ _ _ ((hcond0 t).mpr h0) (win0_0.fill (grid0.coords t) d0 (iblk m c 0 t)) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexists d0; iexact H0
    isplitl [H1]; · iexact H1
    iexists (out_A c (grid0.coords t) (ms0 t) (hs0 t) (ms1 t) (hs1 t) (ms2 t) (hs2 t) ((hcond0 t).mpr h0)
      (win0_0.fill (grid0.coords t) d0 (iblk m c 0 t)) (iblk m c 1 t))
    rw [win0_2.fill_congr_cut _ (cut_A m c t h0 d0)]
    unfold out_A owns; iexists _; isplitr
    swap; · iexact H2
    ipureintro; exact View.read_writes_of_cover _ _ _ _ _ (cover_A c _ _ _ _ _ _ _ _ _ _)
  · simp only [before2_B m c t h0]
    iintro ⟨HΦ, Ho, ⟨%d0, H0⟩, ⟨%d1, H1⟩, ⟨%d2, H2⟩⟩
    iapply ((kernelRun_B c (grid0.coords t) _ _ _ _ _ _ (fun h => h0 ((hcond0 t).mp h)) (win0_0.fill (grid0.coords t) d0 (iblk m c 0 t)) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexists d0; iexact H0
    isplitl [H1]; · iexact H1
    iexists (out_B c (grid0.coords t) (ms0 t) (hs0 t) (ms1 t) (hs1 t) (ms2 t) (hs2 t) (fun h => h0 ((hcond0 t).mp h))
      (win0_0.fill (grid0.coords t) d0 (iblk m c 0 t)) (iblk m c 1 t)
      (win0_2.fill (grid0.coords ⟨t.val - 1, Nat.lt_of_le_of_lt (Nat.sub_le _ _) t.isLt⟩) d2
        (win0_2.cut (grid0.coords ⟨t.val - 1, Nat.lt_of_le_of_lt (Nat.sub_le _ _) t.isLt⟩)
          (outsAt m c (t.val - 1) (Nat.lt_of_le_of_lt (Nat.sub_le _ _) t.isLt)))))
    rw [win0_2.fill_congr_cut _ (cut_B m c t h0 d0 d2)]
    unfold out_B owns; iexists _; isplitr
    swap; · iexact H2
    ipureintro; exact View.read_writes_of_cover _ _ _ _ _ (cover_B c _ _ _ _ _ _ _ _ _ _ _)

/-- The library's body obligation, in its form for clipped windows, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- At the compiled mesh, from any memory with zero counters: every weakly fair execution of @main terminates, every array
    of the pipeline ends at what the library computes from the proof data, and every other unscoped buffer at what the host
    operations after the region leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the idealized program: the three arguments end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KIRun

end
-- ==== Proof.Spec.lean ====
/-
  The function both programs compute. With `A` the 5825 × 16384 table, `B` the 16384 × 64 matrix and `data` the
  16384 signed start indices, entry `(b, e)` of the result is row `r(b)` of `A` against column `e` of `B`,

      G data A B (b, e) = ∑ k < 16384, A (r(b), k) · B (k, e),

  where `r(b)` is the row a `stablehlo.gather` selects for the start index `data b`: the index read as a signed integer
  and clamped into `[0, 5824]` (`rowOf`). The sum is over the extended reals, whose addition is commutative and
  associative, so the order and the grouping of the 16384 terms do not matter.
-/
import Idealize.ShloMosaic.PureOps.Ideal
import Idealize.ShloMosaic.Lib.ValueIdx

noncomputable section

open scoped BigOperators

namespace Cert.Spec

open Idealize.ShloMosaic Idealize.ShloMosaic.ValueIdx

/-- The row a signed 32-bit start index selects among 5825 rows: negative indices select row 0, indices past the end the
    last row. -/
def rowOf (d : BitVec 32) : Fin 5825 := ⟨min d.toInt.toNat 5824, by omega⟩

/-- Row `r` of `A` against column `e` of `B`. -/
def proj (A : (⟨2, ![5825, 16384]⟩ : Shape).Idx → EReal) (B : (⟨2, ![16384, 64]⟩ : Shape).Idx → EReal) :
    (⟨2, ![5825, 64]⟩ : Shape).Idx → EReal :=
  fun j => ∑ k : Fin 16384, A (ix2 (⟨(j 0).val, (j 0).isLt⟩ : Fin 5825) k) * B (ix2 k (⟨(j 1).val, (j 1).isLt⟩ : Fin 64))

/-- The result: for each start index the selected row of the projection. -/
def G (data : (⟨1, ![16384]⟩ : Shape).Idx → BitVec 32) (A : (⟨2, ![5825, 16384]⟩ : Shape).Idx → EReal)
    (B : (⟨2, ![16384, 64]⟩ : Shape).Idx → EReal) : (⟨2, ![16384, 64]⟩ : Shape).Idx → EReal :=
  fun j => proj A B (ix2 (rowOf (data (ix1 (⟨(j 0).val, (j 0).isLt⟩ : Fin 16384)))) (⟨(j 1).val, (j 1).isLt⟩ : Fin 64))

/-! ## A gather of whole rows, read at an index -/

section Rows
variable {α : Type}

/-- The dimension numbers of a gather of whole rows: operand `[N, C]`, start indices `[R, 1]`, result `[R, C]`, the
    row axis collapsed and indexed, the column axis the offset axis. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather of whole rows read at `(t, e)`: the operand at row `idx (t, 0)`, read signed and clamped into
    `[0, N − 1]`, and column `e`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N R C wf) x idx y
      = x (ix2 (⟨min (idx (ix2 (⟨(y 0).val, (y 0).isLt⟩ : Fin R) (0 : Fin 1))).toInt.toNat (N - 1), by omega⟩ : Fin N)
            (⟨(y 1).val, (y 1).isLt⟩ : Fin C)) := by
  -- the result element is the operand at the operand index; the two sides agree axis by axis
  unfold Host.gather
  congr 1
  funext a
  refine Fin.ext ?_
  match a with
  | ⟨0, _⟩ =>
    -- the row axis is collapsed and indexed: no batching or offset coordinate, the start is the clamped start index
    show (rowDims N R C wf).start y idx 0 + (rowDims N R C wf).batchCoord y 0 + (rowDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx y ⟨List.idxOf (0 : Fin 2) (rowDims N R C wf).startIndexMap,
        List.idxOf_lt_length_iff.2 (List.mem_singleton.mpr rfl)⟩
          = ix2 (⟨(y 0).val, (y 0).isLt⟩ : Fin R) (0 : Fin 1) := by
      funext b; refine Fin.ext ?_
      match b with
      | ⟨0, _⟩ => rfl
      | ⟨1, _⟩ => rfl
    rw [hsi]
    rfl
  | ⟨1, _⟩ =>
    -- the column axis is the offset axis: the start index map does not name it, so the start is 0, and the offset
    -- coordinate is the result's second coordinate
    show (rowDims N R C wf).start y idx 1 + (rowDims N R C wf).batchCoord y 1 + (rowDims N R C wf).offCoord y 1 = _
    rw [GatherDims.batchCoord_eq_zero _ _ _ List.not_mem_nil]
    unfold GatherDims.start
    rw [dif_neg (show (1 : Fin 2) ∉ (rowDims N R C wf).startIndexMap from
      fun h => Nat.one_ne_zero (congrArg Fin.val (List.mem_singleton.mp h)))]
    simp only [Nat.add_zero, Nat.zero_add]
    unfold GatherDims.offCoord
    rw [dif_pos (show (1 : Fin 2) ∈ (rowDims N R C wf).sKept from
      (GatherDims.mem_sKept _ _).mpr
        ⟨fun h => Nat.one_ne_zero (congrArg Fin.val (List.mem_singleton.mp h)), List.not_mem_nil⟩)]
    rfl

end Rows

/-! ## The sum over the 16384 terms, grouped as the kernel groups it -/

/-- A position below 16384 is (stretch, run, place): k = p·4096 + q·1024 + r with p, q < 4 and r < 1024, and every
    such triple is one position. -/
private def blockEquiv : Fin 4 × Fin 4 × Fin 1024 ≃ Fin 16384 where
  toFun x := ⟨x.1.val * 4096 + x.2.1.val * 1024 + x.2.2.val, by
    have := x.1.isLt; have := x.2.1.isLt; have := x.2.2.isLt; omega⟩
  invFun k := (⟨k.val / 4096, by have := k.isLt; omega⟩, ⟨k.val % 4096 / 1024, by omega⟩, ⟨k.val % 1024, by omega⟩)
  left_inv x := by
    obtain ⟨⟨p, hp⟩, ⟨q, hq⟩, ⟨r, hr⟩⟩ := x
    refine Prod.ext (Fin.ext ?_) (Prod.ext (Fin.ext ?_) (Fin.ext ?_))
    · show (p * 4096 + q * 1024 + r) / 4096 = p; omega
    · show (p * 4096 + q * 1024 + r) % 4096 / 1024 = q; omega
    · show (p * 4096 + q * 1024 + r) % 1024 = r; omega
  right_inv k := by
    refine Fin.ext ?_
    show k.val / 4096 * 4096 + k.val % 4096 / 1024 * 1024 + k.val % 1024 = k.val
    omega

/-- The 16384 terms split into 4 stretches of 4096, each into 4 runs of 1024. -/
theorem sum_blocks (f : Fin 16384 → EReal) :
    ∑ k : Fin 16384, f k
      = ∑ p : Fin 4, ∑ q : Fin 4, ∑ r : Fin 1024, f ⟨p.val * 4096 + q.val * 1024 + r.val, by omega⟩ := by
  -- re-index the sum along the bijection, then a sum over triples is the iterated sum
  rw [← Equiv.sum_comp blockEquiv f, Fintype.sum_prod_type]
  refine Finset.sum_congr rfl fun p _ => ?_
  rw [Fintype.sum_prod_type]
  rfl

end Cert.Spec

end
-- ==== Proof.KTail.lean ====
/-
  The host operations around the kernel's region, at the ideal values. Before the region the 16384 × 64 matrix is converted
  to a narrower float format, which at the ideal values changes nothing: the region finds the matrix itself. After the region
  the program broadcasts the 16384 start indices to a column and gathers whole rows of the region's 5825 × 64 result: entry
  `(b, e)` of the final result is the region's result at row `rowOf (data b)`, column `e`. So if the region's result is the
  projection `Spec.proj A B`, the program's result is `Spec.G data A B`.
-/
import proofs.«407149_j25993142076017_3_alg».proof.Proof.Gen.KernelIdeal.Frame
import proofs.«407149_j25993142076017_3_alg».proof.Proof.Spec
import Idealize.ShloMosaic.Lib.Pipeline.Value
import Idealize.ShloMosaic.Lib.StableHlo.Run

noncomputable section

namespace Cert.KTail

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The region finds, in the converted matrix's buffer, the matrix as launched: the conversion is the identity at the
    ideal values. -/
theorem V_main_v0 (c : Dev nD) (j : S16384x64.Idx) :
    (V (F := Ideal) m c main_v0 : S16384x64.Idx → EReal) j = (m ((c : Thread nD τ).loc main_arg2) : S16384x64.Idx → EReal) j := by
  -- the region-entry contents of the converted matrix's buffer: the one host operation before the region applied to the
  -- matrix as launched; at the ideal values a narrowing conversion read at an index is the value itself
  show (StableHlo.after hostOps0 (fun b => m (c, b)) (Proc.devRef .tc main_v0) : S16384x64.Idx → EReal) j = _
  after_results
  rfl

/-- The gather of whole rows of the projection at the broadcast start indices is `G`. -/
theorem gather_proj_eq_G (data : IVec S16384 32) (A : S5825x16384.Idx → EReal) (B : S16384x64.Idx → EReal) :
    (Host.gather gather_S5825x64_S16384x1_S16384x64_1_0_n_n_0_1_164 (Cert.Spec.proj A B)
        (broadcastInDim S16384x1 ![0] bcast_S16384_S16384x1_0 data) : S16384x64.Idx → EReal)
      = Cert.Spec.G data A B := by
  funext j
  -- the printed dimension numbers are those of a gather of whole rows
  have hrec : gather_S5825x64_S16384x1_S16384x64_1_0_n_n_0_1_164
      = Cert.Spec.rowDims 5825 16384 64 Cert.KernelIdeal.Facts₀.gather_S5825x64_S16384x1_S16384x64_1_0_n_n_0_1_164_wf := rfl
  -- the broadcast column at (b, 0) is the start index b
  have hb : broadcastInDim S16384x1 ![0] bcast_S16384_S16384x1_0 data (ix2 (⟨(j 0).val, (j 0).isLt⟩ : Fin 16384) (0 : Fin 1))
      = data (ix1 (⟨(j 0).val, (j 0).isLt⟩ : Fin 16384)) :=
    broadcastInDim_apply _ _ data _ _ (fun a => by
      match a with
      | ⟨0, _⟩ => rfl)
  -- the gather at (b, e): the projection at the row the start index (b, 0) selects, column e
  rw [hrec, Cert.Spec.gather_rows_apply (N := 5825) (R := 16384) (C := 64) (by decide)]
  unfold Cert.Spec.G Cert.Spec.rowOf
  congr 1
  funext a
  refine Fin.ext ?_
  match a with
  | ⟨0, _⟩ =>
    show min (BitVec.toInt (broadcastInDim S16384x1 ![0] bcast_S16384_S16384x1_0 data
        (ix2 (⟨(j 0).val, (j 0).isLt⟩ : Fin 16384) (0 : Fin 1)))).toNat (5825 - 1)
      = min (BitVec.toInt (data (ix1 (⟨(j 0).val, (j 0).isLt⟩ : Fin 16384)))).toNat 5824
    rw [hb]
  | ⟨1, _⟩ => rfl

/-- What the program's result buffer holds after the host operations that follow the region, for any proof data of the
    region: the gather, at the broadcast launch contents of the start indices, of what the region's result array holds
    after its last write-back. -/
theorem tail_main_v2 (dats : (p : Fin 1) → (c : Dev nD) → Dat τ (Elt Ideal) Unit ℕ (UR sig nD τ) ℕ (cfgs p) c) (c : Dev nD) :
    (Pipeline.afterTail₀ cfgs dats 0 (V0 m) [hostOps1] c main_v2 : S16384x64.Idx → EReal)
      = Host.gather gather_S5825x64_S16384x1_S16384x64_1_0_n_n_0_1_164
          ((dats 0 c).arrAt 2 cfg0.N : S5825x64.Idx → EReal)
          (broadcastInDim S16384x1 ![0] bcast_S16384_S16384x1_0 (m ((c : Thread nD τ).loc main_arg0) : IVec S16384 32)) := by
  -- what the two host lines read: the region's result array after its last write-back, and the start indices as launched
  have h1 : (Pipeline.withArrays spec0 c (V0 m c) (fun w => (dats 0 c).arrAt w cfg0.N) (Proc.devRef .tc main_v1) : S5825x64.Idx → EReal)
      = (dats 0 c).arrAt 2 cfg0.N := Pipeline.withArrays_arr spec0 launch0.win.arr_inj c _ _ 2
  have h0 : (Pipeline.withArrays spec0 c (V0 m c) (fun w => (dats 0 c).arrAt w cfg0.N) (Proc.devRef .tc main_arg0) : IVec S16384 32)
      = m ((c : Thread nD τ).loc main_arg0) :=
    (Pipeline.withArrays_of_ne spec0 c (V0 m c) _ main_arg0 (by decide)).trans (V_main_arg0 m c)
  -- the result buffer after the two lines: the gather applied to the broadcast, each read where the region left it
  unfold Pipeline.afterTail₀
  show StableHlo.after hostOps1 _ (Proc.devRef .tc main_v2) = _
  after_results
  refine (show _ = Host.gather gather_S5825x64_S16384x1_S16384x64_1_0_n_n_0_1_164
      (Pipeline.withArrays spec0 c (V0 m c) (fun w => (dats 0 c).arrAt w cfg0.N) (Proc.devRef .tc main_v1) : S5825x64.Idx → EReal)
      (broadcastInDim S16384x1 ![0] bcast_S16384_S16384x1_0
        (Pipeline.withArrays spec0 c (V0 m c) (fun w => (dats 0 c).arrAt w cfg0.N) (Proc.devRef .tc main_arg0) : IVec S16384 32)) from rfl).trans ?_
  rw [h1, h0]

end Cert.KTail

end
-- ==== Proof.IdealValue.lean ====
/-
  What the region's result array holds after the run, at the ideal values: the projection. Fix a row `R = 768 ι + p` of the
  result and a column `e`, and write `f k = A (R, k) · B (k, e)` for the 16384 terms of that entry's row-by-column sum, `A` the
  table and `B` the matrix as the region finds them. At point `(ι, κ)` the body adds to entry `(p, e)` of the result's buffer
  the four 1024-term runs of `f` that start at `4096 κ`, `4096 κ + 1024`, `4096 κ + 2048`, `4096 κ + 3072` — the block's entry
  `(p, c)` is the table's `(768 ι + p, 4096 κ + c)`, the matrix's buffer holds the whole matrix —; the first point of the row
  starts from zero, so after the fourth the buffer holds, on the rows inside the result, all sixteen runs added up, which is
  the sum of all 16384 terms in another grouping. The write-back after the fourth point puts those rows into the result
  array, and the eight row blocks together cover its 5825 rows.
-/
import proofs.«407149_j25993142076017_3_alg».proof.Proof.IdealRun
import proofs.«407149_j25993142076017_3_alg».proof.Proof.Spec
import proofs.«407149_j25993142076017_3_alg».proof.Proof.KTail
import Idealize.ShloMosaic.Lib.Pipeline.Value

set_option maxRecDepth 16384

noncomputable section

open scoped BigOperators

namespace Cert.KIValue

open Cert.KernelIdeal Cert.KernelIdeal.Gen Cert.KIBody Cert.KIRun
open Idealize.ShloMosaic Idealize.ShloMosaic.TcCoe Idealize.SL.Sem Idealize.ShloMosaic.ValueIdx
open Idealize.ShloMosaic.Pipeline (Dat Window)

variable (m : (ℓ : Loc nD τ sig) → Buf (Elt Ideal) ℓ) (ρ : Dev nD → PrngReg)

/-! ## The grid: coordinates, block indices and cuts by the point's position -/

theorem coord1 : ∀ t : Fin cfg0.N, ((grid0.coords t) 1).val = t.val % 4 :=
  (by decide +kernel : ∀ t : Fin grid0.N, ((grid0.coords t) 1).val = t.val % 4)
theorem idx0_0 : ∀ t : Fin cfg0.N, win0_0.index t 0 = t.val / 4 :=
  (by decide +kernel : ∀ t : Fin grid0.N, win0_0.index t 0 = t.val / 4)
theorem idx0_1 : ∀ t : Fin cfg0.N, win0_0.index t 1 = t.val % 4 :=
  (by decide +kernel : ∀ t : Fin grid0.N, win0_0.index t 1 = t.val % 4)
theorem idx1_0 : ∀ t : Fin cfg0.N, win0_1.index t 0 = 0 :=
  (by decide +kernel : ∀ t : Fin grid0.N, win0_1.index t 0 = 0)
theorem idx1_1 : ∀ t : Fin cfg0.N, win0_1.index t 1 = 0 :=
  (by decide +kernel : ∀ t : Fin grid0.N, win0_1.index t 1 = 0)
theorem idx2_0 : ∀ t : Fin cfg0.N, win0_2.index t 0 = t.val / 4 :=
  (by decide +kernel : ∀ t : Fin grid0.N, win0_2.index t 0 = t.val / 4)
theorem idx2_1 : ∀ t : Fin cfg0.N, win0_2.index t 1 = 0 :=
  (by decide +kernel : ∀ t : Fin grid0.N, win0_2.index t 1 = 0)
/-- The rows of row block `ι` that lie inside the result: up to the block's end or the result's, whichever comes first. -/
theorem rows_closed : ∀ t : Fin cfg0.N, (t.val / 4) * 768 + win0_2.xsize (grid0.coords t) 0 = min ((t.val / 4 + 1) * 768) 5825 :=
  (by decide +kernel : ∀ t : Fin grid0.N, (t.val / 4) * 768 + win0_2.xsize (grid0.coords t) 0 = min ((t.val / 4 + 1) * 768) 5825)
theorem N_eq : cfg0.N = 32 := N_0

/-! ## The buffers' entries as entries of the arrays -/

/-- The table as the region finds it, and the matrix. -/
abbrev tbl (c : Dev nD) : S5825x16384.Idx → EReal := (V m c main_arg1 : S5825x16384.Idx → EReal)
abbrev mat (c : Dev nD) : S16384x64.Idx → EReal := (V m c main_v0 : S16384x64.Idx → EReal)

/-- Entry `(p, col)` of the zero-filled block at point `t`, on a row inside the table, is the table's entry
    `(768 ι + p, 4096 κ + col)`. -/
theorem blk0_apply (c : Dev nD) (t : Fin cfg0.N) (p : Fin 768) (col : Fin 4096) (hp : p.val < win0_2.xsize (grid0.coords t) 0)
    (R : Fin 5825) (hR : R.val = (t.val / 4) * 768 + p.val) (K : Fin 16384) (hK : K.val = (t.val % 4) * 4096 + col.val) :
    blk0 m c t (ix2 p col) = tbl m c (ix2 R K) := by
  unfold blk0 Window.fill
  rw [dif_pos (moved0 t p col hp)]
  unfold iblk
  rw [View.read_apply]
  show V m c main_arg1 _ = V m c main_arg1 _
  congr 1
  funext a
  refine Fin.ext ?_
  match a with
  | ⟨0, _⟩ => show win0_0.index t 0 * 768 + 1 * p.val = R.val; rw [idx0_0 t, hR]; omega
  | ⟨1, _⟩ => show win0_0.index t 1 * 4096 + 1 * col.val = K.val; rw [idx0_1 t, hK]; omega

/-- The matrix's buffer holds the matrix. -/
theorem iblk1_apply (c : Dev nD) (t : Fin cfg0.N) (r : Fin 16384) (e : Fin 64) :
    (iblk m c 1 t : S16384x64.Idx → EReal) (ix2 r e) = mat m c (ix2 r e) := by
  unfold iblk
  rw [View.read_apply]
  show V m c main_v0 _ = V m c main_v0 _
  congr 1
  funext a
  refine Fin.ext ?_
  match a with
  | ⟨0, _⟩ => show win0_1.index t 0 * 16384 + 1 * r.val = r.val; rw [idx1_0 t]; omega
  | ⟨1, _⟩ => show win0_1.index t 1 * 64 + 1 * e.val = e.val; rw [idx1_1 t]; omega

/-! ## The sixteen runs of a row-by-column sum -/

/-- Term `k` of the row-by-column sum of row `R` of `A` and column `e` of `B`. -/
def term (A : S5825x16384.Idx → EReal) (B : S16384x64.Idx → EReal) (R : Fin 5825) (e : Fin 64) (k : Fin 16384) : EReal :=
  A (ix2 R k) * B (ix2 k e)

/-- The 1024-term run of `f` that starts at `4096 κ + 1024 q`. -/
def seg (f : Fin 16384 → EReal) (κ q : Fin 4) : EReal :=
  ∑ r : Fin 1024, f ⟨κ.val * 4096 + q.val * 1024 + r.val, by have := κ.isLt; have := q.isLt; omega⟩

/-- One stretch of a point's sum is one run of the entry's terms. -/
theorem stretch_seg (c : Dev nD) (t : Fin cfg0.N) (p : Fin 768) (e : Fin 64) (hp : p.val < win0_2.xsize (grid0.coords t) 0)
    (R : Fin 5825) (hR : R.val = (t.val / 4) * 768 + p.val) (κ : Fin 4) (hκ : κ.val = t.val % 4)
    (q : Fin 4) (o : Nat) (ho : o + 1024 ≤ 4096) (hq : o = q.val * 1024) :
    stretch (grid0.coords t) (blk0 m c t) (iblk m c 1 t) o ho p e = seg (term (tbl m c) (mat m c) R e) κ q := by
  unfold stretch seg term
  refine Finset.sum_congr rfl fun r _ => ?_
  have hK : ((grid0.coords t) 1).val * 4096 + o + r.val = κ.val * 4096 + q.val * 1024 + r.val := by rw [coord1 t, hκ, hq]
  refine congrArg₂ (· * ·) (blk0_apply m c t p _ hp R hR _ ?_)
    ((iblk1_apply m c t _ e).trans (congrArg (fun z => mat m c (ix2 z e)) (Fin.ext hK)))
  show κ.val * 4096 + q.val * 1024 + r.val = (t.val % 4) * 4096 + (o + r.val)
  omega

/-- A point's contribution at `(p, e)`: the four runs of its grid column. -/
theorem pointSum_seg (c : Dev nD) (t : Fin cfg0.N) (p : Fin 768) (e : Fin 64) (hp : p.val < win0_2.xsize (grid0.coords t) 0)
    (R : Fin 5825) (hR : R.val = (t.val / 4) * 768 + p.val) (κ : Fin 4) (hκ : κ.val = t.val % 4) :
    pointSum (grid0.coords t) (blk0 m c t) (iblk m c 1 t) p e
      = seg (term (tbl m c) (mat m c) R e) κ 0 + seg (term (tbl m c) (mat m c) R e) κ 1
        + seg (term (tbl m c) (mat m c) R e) κ 2 + seg (term (tbl m c) (mat m c) R e) κ 3 := by
  unfold pointSum
  rw [stretch_seg m c t p e hp R hR κ hκ 0 0 _ rfl, stretch_seg m c t p e hp R hR κ hκ 1 1024 _ rfl,
    stretch_seg m c t p e hp R hR κ hκ 2 2048 _ rfl, stretch_seg m c t p e hp R hR κ hκ 3 3072 _ rfl]

/-! ## The accumulator after the last point of a grid row -/

theorem outsAt_apply_A (c : Dev nD) (t : Fin cfg0.N) (h0 : t.val % 4 = 0) (p : Fin 768) (e : Fin 64) :
    outsAt m c t.val t.isLt (ix2 p e) = pointSum (grid0.coords t) (blk0 m c t) (iblk m c 1 t) p e := by
  rw [outsAt_A m c t h0, out_A_apply]

theorem outsAt_apply_B (c : Dev nD) (t : Fin cfg0.N) (h0 : ¬t.val % 4 = 0) (p : Fin 768) (e : Fin 64) :
    outsAt m c t.val t.isLt (ix2 p e)
      = outsAt m c (t.val - 1) (Nat.lt_of_le_of_lt (Nat.sub_le _ _) t.isLt) (ix2 p e)
        + pointSum (grid0.coords t) (blk0 m c t) (iblk m c 1 t) p e := by
  rw [outsAt_B m c t h0, out_B_apply]

/-- After the fourth point of a grid row the result's buffer holds, on a row inside the result, the whole row-by-column
    sum: the sixteen runs, which are all 16384 terms. -/
theorem outsAt_last (c : Dev nD) (t : Fin cfg0.N) (h3 : t.val % 4 = 3) (p : Fin 768) (e : Fin 64)
    (hp : p.val < win0_2.xsize (grid0.coords t) 0) (R : Fin 5825) (hR : R.val = (t.val / 4) * 768 + p.val) :
    outsAt m c t.val t.isLt (ix2 p e) = ∑ k : Fin 16384, term (tbl m c) (mat m c) R e k := by
  have hN := N_eq
  have hlt := t.isLt
  have ht2 : t.val - 1 < cfg0.N := by omega
  have ht1 : t.val - 1 - 1 < cfg0.N := by omega
  have ht0 : t.val - 1 - 1 - 1 < cfg0.N := by omega
  have r3 := rows_closed t
  have r2 := rows_closed ⟨t.val - 1, ht2⟩
  have r1 := rows_closed ⟨t.val - 1 - 1, ht1⟩
  have r0 := rows_closed ⟨t.val - 1 - 1 - 1, ht0⟩
  dsimp only at r2 r1 r0
  have e3 := outsAt_apply_B m c t (by omega) p e
  have e2 := outsAt_apply_B m c ⟨t.val - 1, ht2⟩ (by dsimp only; omega) p e
  have e1 := outsAt_apply_B m c ⟨t.val - 1 - 1, ht1⟩ (by dsimp only; omega) p e
  have e0 := outsAt_apply_A m c ⟨t.val - 1 - 1 - 1, ht0⟩ (by dsimp only; omega) p e
  dsimp only at e2 e1 e0
  have s3 := pointSum_seg m c t p e hp R hR 3 (by rw [h3]; rfl)
  have s2 := pointSum_seg m c ⟨t.val - 1, ht2⟩ p e (by omega) R (by dsimp only; omega) 2 (by dsimp only; show 2 = _; omega)
  have s1 := pointSum_seg m c ⟨t.val - 1 - 1, ht1⟩ p e (by omega) R (by dsimp only; omega) 1 (by dsimp only; show 1 = _; omega)
  have s0 := pointSum_seg m c ⟨t.val - 1 - 1 - 1, ht0⟩ p e (by omega) R (by dsimp only; omega) 0 (by dsimp only; show 0 = _; omega)
  rw [e3, s3, e2, s2, e1, s1, e0, s0, Cert.Spec.sum_blocks, Fin.sum_univ_four]
  simp only [Fin.sum_univ_four]
  rfl

/-! ## The write-backs and the result array -/

/-- The projection of the table and the matrix as the region finds them, as contents of the region's result array. -/
def projArr (c : Dev nD) : Buf (Elt Ideal) ((c : Thread nD τ).loc main_v1) := Cert.Spec.proj (tbl m c) (mat m c)

/-- The moved part of a block of the result, at an entry. -/
theorem cut2_apply (i : grid0.Coords) (X : S768x64.Idx → Elt Ideal .f32) (y : (win0_2.xblock i).Idx) :
    (cfg0.win 2).cut i X y = X (win0_2.xinj i y) := rfl

/-- What the write-back after the last point of a grid row writes is that row block of the projection, cut to the
    result's rows. -/
theorem flushed_eq (c : Dev nD) (t : Fin cfg0.N) (hf : (cfg0.win 2).flush t = true) :
    (dats m 0 c).flushed 2 t = ((cfg0.win 2).blk t).view.read (Elt Ideal) (projArr m c) := by
  have h3 : t.val % 4 = 3 := (flush0_2 t).mp hf
  have hN := N_eq
  have hlt := t.isLt
  show (cfg0.win 2).cut (grid0.coords t) ((dats m 0 c).after 2 t) = _
  rw [after0_2]
  funext y
  rw [View.read_apply]
  refine (cut2_apply (grid0.coords t) _ y).trans ?_
  rw [xinj2_eq t y]
  have hr := rows_closed t
  have hy0 : (y 0).val < win0_2.xsize (grid0.coords t) 0 := (y 0).isLt
  rw [outsAt_last m c t h3 _ _ hy0 ⟨(t.val / 4) * 768 + (y 0).val, by omega⟩ rfl]
  unfold projArr Cert.Spec.proj
  rw [cast_eq]
  refine Finset.sum_congr rfl fun k _ => ?_
  unfold term
  have h0 : ((win0_2.blk t).view.emb y 0).val = (t.val / 4) * 768 + (y 0).val := by
    show win0_2.index t 0 * 768 + 1 * (y 0).val = _
    rw [idx2_0 t]; omega
  have h1 : ((win0_2.blk t).view.emb y 1).val = (y 1).val := by
    show win0_2.index t 1 * 64 + 1 * (y 1).val = _
    rw [idx2_1 t]; omega
  exact congrArg₂ (· * ·) (congrArg (fun r => tbl m c (ix2 r k)) (Fin.ext h0.symm))
    (congrArg (fun z => mat m c (ix2 k z)) (Fin.ext h1.symm))

/-- Every entry of the result array lies in the block some row's last point writes back: row `r` in row block `r / 768`. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN := N_eq
  have hi0 : (i 0).val < 5825 := (i 0).isLt
  have hi1 : (i 1).val < 64 := (i 1).isLt
  have hb : 4 * ((i 0).val / 768) + 3 < cfg0.N := by omega
  refine ⟨⟨4 * ((i 0).val / 768) + 3, hb⟩, (flush0_2 _).mpr (by dsimp only; omega), ?_⟩
  show i ∈ ((View.whole main_v1).slice (win0_2.rect ⟨4 * ((i 0).val / 768) + 3, hb⟩)).set
  rw [View.set_slice_whole, Rect.mem_set_unit]
  have hr := rows_closed ⟨4 * ((i 0).val / 768) + 3, hb⟩
  dsimp only at hr
  intro a
  match a with
  | ⟨0, _⟩ =>
    show win0_2.index ⟨4 * ((i 0).val / 768) + 3, hb⟩ 0 * 768 ≤ (i 0 : Nat)
      ∧ (i 0 : Nat) < win0_2.index ⟨4 * ((i 0).val / 768) + 3, hb⟩ 0 * 768 + win0_2.xsize (grid0.coords ⟨4 * ((i 0).val / 768) + 3, hb⟩) 0
    rw [idx2_0]; dsimp only; omega
  | ⟨1, _⟩ =>
    show win0_2.index ⟨4 * ((i 0).val / 768) + 3, hb⟩ 1 * 64 ≤ (i 1 : Nat)
      ∧ (i 1 : Nat) < win0_2.index ⟨4 * ((i 0).val / 768) + 3, hb⟩ 1 * 64 + win0_2.xsize (grid0.coords ⟨4 * ((i 0).val / 768) + 3, hb⟩) 1
    rw [idx2_1, xs2_cols]; omega

/-- So the region's result array ends holding the projection. -/
theorem final_proj (c : Dev nD) : (dats m 0 c).arrAt 2 cfg0.N = projArr m c :=
  (dats m 0 c).arrAt_eq_of_cover 2 (projArr m c) (flushed_eq m c) (cover c)

/-! ## The program's result -/

/-- The table the region finds is the launch's, and so (entry by entry) is the matrix. -/
theorem tbl_eq (c : Dev nD) : tbl m c = (m ((c : Thread nD τ).loc main_arg1) : S5825x16384.Idx → EReal) := V_main_arg1 m c
theorem mat_eq (c : Dev nD) : mat m c = (m ((c : Thread nD τ).loc main_arg2) : S16384x64.Idx → EReal) :=
  funext fun j => Cert.KTail.V_main_v0 m c j

/-- The run, read: the program's result is `G` of the three arguments, which end unchanged. -/
theorem run : θ_run defs (onTc (τ := τ) (main (F := Ideal))) ⟨m, fun _ => 0, ρ⟩ fun r => ∀ c : Dev nD,
      (r.2.mem ((c.tc : Thread nD τ).loc main_v2) : S16384x64.Idx → EReal)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_,
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)
  have hv := (h c).2 main_v2 (Pipeline.mem_restRefs_of main_v2 (by decide) (by decide))
  rw [hv, Cert.KTail.tail_main_v2 m (dats m) c, final_proj m c]
  unfold projArr
  rw [tbl_eq m c, mat_eq m c]
  exact Cert.KTail.gather_proj_eq_G _ _ _

end Cert.KIValue

end
-- ==== Proof.RefValue.lean ====
/-
  The reference's result is `Cert.Spec.G`. The reference first replaces a negative start index `d` by `d + 5825`,
  then gathers whole rows of the table (start index read signed, clamped into `[0, 5824]`), then contracts the gathered
  16384 × 16384 array with the 16384 × 64 matrix. Where no start index is negative the replacement is the identity, the
  gathered row is `rowOf d`, and the contraction at `(b, e)` is the sum over `k` of the table's entry `(rowOf (data b), k)`
  times the matrix's `(k, e)`.
-/
import proofs.«407149_j25993142076017_3_alg».proof.Proof.Gen.ReferenceIdeal.Read
import proofs.«407149_j25993142076017_3_alg».proof.Proof.Spec

noncomputable section

open scoped BigOperators

namespace Cert.RefValue

open Cert.ReferenceIdeal Cert.ReferenceIdeal.Gen Idealize.ShloMosaic Idealize.ShloMosaic.ValueIdx

/-- With no negative start index, the reference's last stage is `G` of its three arguments. -/
theorem ref_eq_G (x0 : (⟨S16384, .i32⟩ : BufTy).Contents (Elt Ideal)) (x1 : (⟨S5825x16384, .f32⟩ : BufTy).Contents (Elt Ideal))
    (x2 : (⟨S16384x64, .f32⟩ : BufTy).Contents (Elt Ideal))
    (hnn : ∀ i : S16384.Idx, IntOp.cmpi .slt (x0 i) 0#32 = 0#1) :
    Cert.ReferenceIdeal.Read.val_main_v7 (F := Ideal) x0 x1 x2 = Cert.Spec.G x0 x1 x2 := by
  funext j
  -- the contraction at (b, e) is the sum over k of the gathered array at (b, k) times the matrix at (k, e)
  rw [Cert.ReferenceIdeal.Read.val_main_v7_apply]
  unfold Cert.Spec.G Cert.Spec.proj
  refine Finset.sum_congr rfl fun k _ => ?_
  -- the start word the gather reads for result row b: no index is negative, so the select keeps the index itself
  have hw : ∀ i : S16384x1.Idx, (i 0).val = (j 0).val →
      Cert.ReferenceIdeal.Read.val_main_v5 (F := Ideal) x0 i = x0 (ix1 (⟨(j 0).val, (j 0).isLt⟩ : Fin 16384)) := by
    intro i hi
    rw [Cert.ReferenceIdeal.Read.val_main_v5_apply, Cert.ReferenceIdeal.Read.val_main_v4_apply,
      Cert.ReferenceIdeal.Read.val_main_v1_apply, Cert.ReferenceIdeal.Read.val_main_v0_apply,
      Cert.ReferenceIdeal.Read.val_main_c_apply, hnn, select_zero]
    congr 1
    funext a
    match a with
    | ⟨0, _⟩ => exact Fin.ext hi
  congr 1
  · -- the gathered array at (b, k) is the table at (rowOf (data b), k)
    unfold Cert.ReferenceIdeal.Read.val_main_v6
    refine (Cert.Spec.gather_rows_apply (N := 5825) (R := 16384) (C := 16384) (by decide)
      Cert.ReferenceIdeal.Facts₀.gather_S5825x16384_S16384x1_S16384x16384_1_0_n_n_0_1_116384_wf x1
      (Cert.ReferenceIdeal.Read.val_main_v5 x0) (Cert.ReferenceIdeal.Read.lidx_main_v7 j k)).trans ?_
    congr 1
    funext a
    refine Fin.ext ?_
    match a with
    | ⟨0, _⟩ =>
      show min (BitVec.toInt (Cert.ReferenceIdeal.Read.val_main_v5 (F := Ideal) x0 _)).toNat (5825 - 1)
        = min (BitVec.toInt (x0 (ix1 (⟨(j 0).val, (j 0).isLt⟩ : Fin 16384)))).toNat 5824
      rw [hw _ rfl]
    | ⟨1, _⟩ => rfl
  · -- the matrix is read at (k, e) on both sides
    congr 1
    funext a
    match a with
    | ⟨0, _⟩ => rfl
    | ⟨1, _⟩ => rfl

end Cert.RefValue

end
-- ==== Proof.PreNonneg.lean ====
/-
  What the precondition says of the start indices: every one of the 16384 signed words is at least zero. The printed
  predicate is the conjunction of three "all" reductions — the two float inputs finite, the indices not negative —; only
  the third is read here.
-/
import proofs.«407149_j25993142076017_3_alg».proof.Pre_finite_inputs
import proofs.«407149_j25993142076017_3_alg».proof.Proof.Gen.Pre_finite_inputs
import Idealize.ShloMosaic.Lib.ReduceAll
import Idealize.ShloMosaic.Lib.ValueIdx
import Idealize.ShloMosaic.Lib.StableHlo.Predicate

noncomputable section

namespace Cert.PreNonneg

open Idealize.ShloMosaic Idealize.ShloMosaic.ValueIdx

variable {F : FTy → Type} [FloatOps F]

/-- Under the precondition no start index is negative: the signed comparison "index < 0" is false at every position. -/
theorem not_neg_of_pre (d : IVec Cert.Pre_finite_inputs.S16384 32) (a : FVec F Cert.Pre_finite_inputs.S5825x16384 .f32)
    (b : FVec F Cert.Pre_finite_inputs.S16384x64 .f32)
    (h : Cert.Pre_finite_inputs.fn (F := F) d a b = fun _ => 1#1) (i : Cert.Pre_finite_inputs.S16384.Idx) :
    IntOp.cmpi .slt (d i) 0#32 = 0#1 := by
  -- the predicate at its one index
  have h0 := congrFun h ix0
  dsimp only [Cert.Pre_finite_inputs.fn] at h0
  -- it is (A finite ∧ B finite) ∧ (every index ≥ 0): keep the last conjunct
  obtain ⟨_, h11⟩ := IntOp.andi_eq_one.1 h0
  haveI : Subsingleton Cert.Pre_finite_inputs.S_.Idx := ⟨fun a b => funext fun d => d.elim0⟩
  -- an "all" that holds, holds at every position
  have hi := Host.reduce_andi_all _ _ _ _ _ h11 i
  have hge : IntOp.cmpi .sge (d i) 0#32 = 1#1 := hi
  -- 0 ≤ d i read signed, so d i < 0 read signed fails
  have hle := IntOp.cmpi_sge.1 hge
  refine eq_zero_of_ne_one fun hlt => ?_
  have hl := IntOp.cmpi_slt.1 hlt
  omega

end Cert.PreNonneg

end
-- ==== Proof.lean ====
/-
  The kernel computes a table projection and then selects rows of it; the reference selects rows of the table and then
  projects them. With `A` the 5825 × 16384 table, `B` the 16384 × 64 matrix and `data` the 16384 start indices, both results
  are, at the ideal values,

      G data A B (b, e) = ∑ k < 16384, A (r(b), k) · B (k, e),

  where `r(b)` is `data b` read as a signed integer and clamped into `[0, 5824]`:

  * the kernel multiplies `A` by `B` block by block — 768 rows at a time, the 16384 terms of each entry in sixteen runs of
    1024 added up from zero, the last row block cut at the table's end — and then gathers row `r(b)` of the product for
    each `b`; the changes of float format on the way are the identity on extended reals, and the order and grouping of
    the terms of a sum do not matter there;
  * the reference first replaces a negative index `d` by `d + 5825`, gathers row `r` of that, and contracts the gathered rows
    with `B`. Under the precondition no index is negative, so the replacement does nothing.

  The precondition's other conjuncts (the float inputs finite) are not used: no law that needs finiteness is. The frame of
  the word-level program says nothing of values; the idealization rewrote nothing.
-/
import proofs.«407149_j25993142076017_3_alg».proof.Defs
import proofs.«407149_j25993142076017_3_alg».proof.Proof.Gen.Kernel
import proofs.«407149_j25993142076017_3_alg».proof.Proof.Gen.KernelIdeal
import proofs.«407149_j25993142076017_3_alg».proof.Proof.Gen.ReferenceIdeal
import proofs.«407149_j25993142076017_3_alg».proof.Proof.Gen.Pre_finite_inputs
import proofs.«407149_j25993142076017_3_alg».proof.Proof.Gen.ReferenceIdeal.Run
import proofs.«407149_j25993142076017_3_alg».proof.Proof.Gen.ReferenceIdeal.Read
import proofs.«407149_j25993142076017_3_alg».proof.Proof.BitsFrame
import proofs.«407149_j25993142076017_3_alg».proof.Proof.IdealValue
import proofs.«407149_j25993142076017_3_alg».proof.Proof.RefValue
import proofs.«407149_j25993142076017_3_alg».proof.Proof.PreNonneg
import Idealize.ShloMosaic.Adequacy
import Idealize.ShloMosaic.Init

noncomputable section

namespace Cert.Proof

open Idealize.ShloMosaic Idealize.SL.Sem

/-- The word-level program's frame. -/
theorem frame_k : Cert.frame_Kernel := Cert.BitsFrame.frame

/-- The idealized program's frame: its run, the result dropped. -/
theorem frame_ki : Cert.frame_KernelIdeal := fun m ρ _ => Cert.KIRun.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at `G` of the arguments: the kernel's run by the block-by-block projection and the row gather, the
    reference's because under the precondition no start index is negative. -/
theorem algebraic : Cert.algebraic_KernelIdeal_ReferenceIdeal := by
  intro m ρ m' ρ' hpre hagree
  refine ⟨_, Cert.KIValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2]
  exact Cert.RefValue.ref_eq_G _ _ _ (fun i => Cert.PreNonneg.not_neg_of_pre _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
